-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x4096x128 : Shape := ⟨4, ![4, 32, 4096, 128]⟩
abbrev S4096 : Shape := ⟨1, ![4096]⟩
abbrev S_ : Shape := ⟨0, ![]⟩

class Facts : Prop where
  bcast_S_S4x32x4096x128 : S_.BroadcastsInDim S4x32x4096x128 (![] : Fin 0 → Fin S4x32x4096x128.rank)
  reducesTo_S4x32x4096x128_S_d0_1_2_3 : S4x32x4096x128.ReducesTo [0, 1, 2, 3] S_
  h_S_ : 0 < S_.numel
  bcast_S_S4096 : S_.BroadcastsInDim S4096 (![] : Fin 0 → Fin S4096.rank)
  reducesTo_S4096_S_d0 : S4096.ReducesTo [0] S_

variable [Facts]

def comparator_i32_d0 : BitVec 32 → BitVec 32 → BitVec 1 :=
  fun l r =>
    let v14 := IntOp.cmpi .slt l r
    v14
def fn {F : FTy → Type} [FloatOps F] (main_arg0 : FVec F S4x32x4096x128 .f32) (main_arg1 : FVec F S4096 .f32) (main_arg2 : IVec S4096 32) : IVec S_ 1 :=
  let main_v0 : FVec F S4x32x4096x128 .f32 := Host.absf main_arg0
  let main_cst : FVec F S_ .f32 := constant S_ .f32 0x7F800000#32
  let main_v1 : FVec F S4x32x4096x128 .f32 := broadcastInDim S4x32x4096x128 ![] bcast_S_S4x32x4096x128 main_cst
  let main_v2 : IVec S4x32x4096x128 1 := cmpf .olt main_v0 main_v1
  let main_c : IVec S_ 1 := constantI S_ 1 1#1
  let main_v3 : IVec S_ 1 := (fun x v => Host.reduce IntOp.andi x v reducesTo_S4x32x4096x128_S_d0_1_2_3 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : IVec S4096 32 := (fun x => Host.sort S4096 0 comparator_i32_d0 x) main_arg2
  let main_v10 : IVec S4096 32 := iotaInDim S4096 32 0
  let main_v11 : IVec S4096 1 := cmpi .eq main_v9 main_v10
  let main_c_2 : IVec S_ 1 := constantI S_ 1 1#1
  let main_v12 : IVec S_ 1 := (fun x v => Host.reduce IntOp.andi x v reducesTo_S4096_S_d0 h_S_) main_v11 main_c_2
  let main_v13 : IVec S_ 1 := andi main_v8 main_v12
  main_v13
-- ==== Kernel.lean ====
abbrev S4x32x4096x128 : Shape := ⟨4, ![4, 32, 4096, 128]⟩
abbrev S4096 : Shape := ⟨1, ![4096]⟩
abbrev S4x4096x32x128 : Shape := ⟨4, ![4, 4096, 32, 128]⟩
abbrev S4x4096x4096 : Shape := ⟨3, ![4, 4096, 4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x1x32x128 : Shape := ⟨4, ![1, 1, 32, 128]⟩
abbrev S1x256x32x128 : Shape := ⟨4, ![1, 256, 32, 128]⟩
abbrev S1x256x32 : Shape := ⟨3, ![1, 256, 32]⟩
abbrev S1x256x32x1 : Shape := ⟨4, ![1, 256, 32, 1]⟩

abbrev nBuf : Space → Nat
  | .hbm => 82
  | .vmem => 5
  | .smem => 0
  | _ => 0

abbrev bufTy : (tb : Table) → Fin (tcTables nBuf tb) → BufTy
  | .hbm, ⟨0, _⟩ => ⟨S4x32x4096x128, .f32⟩
  | .hbm, ⟨1, _⟩ => ⟨S4096, .f32⟩
  | .hbm, ⟨2, _⟩ => ⟨S4096, .i32⟩
  | .hbm, ⟨3, _⟩ => ⟨S4x4096x32x128, .f32⟩
  | .hbm, ⟨4, _⟩ => ⟨S4x4096x4096, .f32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S1, .i32⟩
  | .hbm, ⟨14, _⟩ => ⟨S_, .i32⟩
  | .hbm, ⟨15, _⟩ => ⟨S4096x1, .i32⟩
  | .hbm, ⟨16, _⟩ => ⟨S4096x1, .i1⟩
  | .hbm, ⟨17, _⟩ => ⟨S1x1, .i32⟩
  | .hbm, ⟨18, _⟩ => ⟨S4096x1, .i32⟩
  | .hbm, ⟨19, _⟩ => ⟨S4096x1, .i1⟩
  | .hbm, ⟨20, _⟩ => ⟨S4096x1, .i1⟩
  | .hbm, ⟨21, _⟩ => ⟨S_, .i1⟩
  | .hbm, ⟨22, _⟩ => ⟨S4096, .i1⟩
  | .hbm, ⟨23, _⟩ => ⟨S4x4096x4096, .f32⟩
  | .hbm, ⟨24, _⟩ => ⟨S4x4096x4096, .i1⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S4096x1, .i32⟩
  | .hbm, ⟨36, _⟩ => ⟨S1, .i32⟩
  | .hbm, ⟨37, _⟩ => ⟨S_, .i32⟩
  | .hbm, ⟨38, _⟩ => ⟨S4096x1, .i32⟩
  | .hbm, ⟨39, _⟩ => ⟨S4096x1, .i1⟩
  | .hbm, ⟨40, _⟩ => ⟨S1x1, .i32⟩
  | .hbm, ⟨41, _⟩ => ⟨S4096x1, .i32⟩
  | .hbm, ⟨42, _⟩ => ⟨S4096x1, .i1⟩
  | .hbm, ⟨43, _⟩ => ⟨S4096x1, .i1⟩
  | .hbm, ⟨44, _⟩ => ⟨S_, .i1⟩
  | .hbm, ⟨45, _⟩ => ⟨S4096, .i1⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S4x4096x32x128, .f32⟩
  | .hbm, ⟨54, _⟩ => ⟨S1x1x32x128, .f32⟩
  | .hbm, ⟨55, _⟩ => ⟨S4x4096x32x128, .f32⟩
  | .hbm, ⟨56, _⟩ => ⟨S4x4096x4096, .f32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S4096x1, .i32⟩
  | .hbm, ⟨65, _⟩ => ⟨S1, .i32⟩
  | .hbm, ⟨66, _⟩ => ⟨S_, .i32⟩
  | .hbm, ⟨67, _⟩ => ⟨S4096x1, .i32⟩
  | .hbm, ⟨68, _⟩ => ⟨S4096x1, .i1⟩
  | .hbm, ⟨69, _⟩ => ⟨S1x1, .i32⟩
  | .hbm, ⟨70, _⟩ => ⟨S4096x1, .i32⟩
  | .hbm, ⟨71, _⟩ => ⟨S4096x1, .i1⟩
  | .hbm, ⟨72, _⟩ => ⟨S4096x1, .i1⟩
  | .hbm, ⟨73, _⟩ => ⟨S_, .i1⟩
  | .hbm, ⟨74, _⟩ => ⟨S4096, .i1⟩
  | .hbm, ⟨75, _⟩ => ⟨S4x4096x4096, .f32⟩
  | .hbm, ⟨76, _⟩ => ⟨S4x4096x4096, .i1⟩
  | .hbm, ⟨77, _⟩ => ⟨S_, .f32⟩
  | .hbm, ⟨78, _⟩ => ⟨S4x4096x4096, .f32⟩
  | .hbm, ⟨79, _⟩ => ⟨S4x4096x4096, .f32⟩
  | .hbm, ⟨80, _⟩ => ⟨S4x4096x32x128, .f32⟩
  | .hbm, ⟨81, _⟩ => ⟨S4x32x4096x128, .f32⟩
  | .local _ .vmem, ⟨0, _⟩ => ⟨S1x256x32x128, .f32⟩
  | .local _ .vmem, ⟨1, _⟩ => ⟨S1x256x32x128, .f32⟩
  | .local _ .vmem, ⟨2, _⟩ => ⟨S1x1x32x128, .f32⟩
  | .local _ .vmem, ⟨3, _⟩ => ⟨S1x256x32x128, .f32⟩
  | .local _ .vmem, ⟨4, _⟩ => ⟨S1x256x32x128, .f32⟩
  | _, _ => ⟨S4x32x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v3 : Ref sig .tc := ⟨.hbm, 49, rfl⟩
abbrev main_call2_v0 : Ref sig .tc := ⟨.hbm, 50, rfl⟩
abbrev main_call2_v1_0 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_call3_c : Ref sig .tc := ⟨.hbm, 57, rfl⟩
abbrev main_call3_v0 : Ref sig .tc := ⟨.hbm, 58, rfl⟩
abbrev main_call3_v1 : Ref sig .tc := ⟨.hbm, 59, rfl⟩
abbrev main_call3_c_0 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_c_1 : Ref sig .tc := ⟨.hbm, 65, rfl⟩
abbrev main_call3_c_2 : Ref sig .tc := ⟨.hbm, 66, rfl⟩
abbrev main_call3_v6 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_call3_v11 : Ref sig .tc := ⟨.hbm, 72, rfl⟩
abbrev main_call3_c_3 : Ref sig .tc := ⟨.hbm, 73, rfl⟩
abbrev main_call3_v12 : Ref sig .tc := ⟨.hbm, 74, rfl⟩
abbrev main_call3_v13 : Ref sig .tc := ⟨.hbm, 75, rfl⟩
abbrev main_call3_v14 : Ref sig .tc := ⟨.hbm, 76, rfl⟩
abbrev main_call3_cst : Ref sig .tc := ⟨.hbm, 77, rfl⟩
abbrev main_call3_v15 : Ref sig .tc := ⟨.hbm, 78, rfl⟩
abbrev main_v9 : Ref sig .tc := ⟨.hbm, 79, rfl⟩
abbrev main_v10 : Ref sig .tc := ⟨.hbm, 80, rfl⟩
abbrev main_v11 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S4x32x4096x128_S4x4096x32x128_0_2_1_3 : S4x32x4096x128.Transposes [0, 2, 1, 3] S4x4096x32x128
  shapeCasts_S4x4096x32x128_S4x4096x4096 : S4x4096x32x128.ShapeCasts S4x4096x4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4x4096x4096_2 : S4096.BroadcastsInDim S4x4096x4096 (![2] : Fin 1 → Fin S4x4096x4096.rank)
  bcast_S_S4x4096x4096 : S_.BroadcastsInDim S4x4096x4096 (![] : Fin 0 → Fin S4x4096x4096.rank)
  shapeCasts_S4x4096x4096_S4x4096x32x128 : S4x4096x4096.ShapeCasts S4x4096x32x128
  shapeCasts_S4096_S1x1x32x128 : S4096.ShapeCasts S1x1x32x128
  inb_S1x256x32x128_S1x256x32x128_0_0_0_0 : ∀ a, (![0, 0, 0, 0] : Fin 4 → Nat) a + S1x256x32x128.size a ≤ S1x256x32x128.size a
  h_S1x256x32x128 : 0 < S1x256x32x128.numel
  shapeCasts_S1x256x32x128_S1x256x32x128 : S1x256x32x128.ShapeCasts S1x256x32x128
  inb_S1x1x32x128_S1x1x32x128_0_0_0_0 : ∀ a, (![0, 0, 0, 0] : Fin 4 → Nat) a + S1x1x32x128.size a ≤ S1x1x32x128.size a
  h_S1x1x32x128 : 0 < S1x1x32x128.numel
  shapeCasts_S1x1x32x128_S1x1x32x128 : S1x1x32x128.ShapeCasts S1x1x32x128
  broadcasts_S1x1x32x128_S1x256x32x128 : S1x1x32x128.Broadcasts S1x256x32x128
  reduces_S1x256x32x128_S1x256x32 : S1x256x32x128.Reduces [3] S1x256x32
  shapeCasts_S1x256x32_S1x256x32x1 : S1x256x32.ShapeCasts S1x256x32x1
  broadcasts_S1x256x32x1_S1x256x32x128 : S1x256x32x1.Broadcasts S1x256x32x128
  transposes_S4x4096x32x128_S4x32x4096x128_0_2_1_3 : S4x4096x32x128.Transposes [0, 2, 1, 3] S4x32x4096x128
  gather_S4x4096x4096_S4096x1_S4x4096x4096_01_2_n_n_2_1_440961_wf : GatherDims.WF S4x4096x4096 S4096x1 S4x4096x4096 [0, 1] [2] [] [2] [] 1 ![4, 4096, 1]
  gather_S4096_S4096x1_S4096_n_0_n_n_0_1_1_wf : GatherDims.WF S4096 S4096x1 S4096 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32x128.size a ≤ S4x4096x32x128.size a
  hwx0_0 : ∀ i : grid0.Coords, EltTy.bits .f32 = 32 ∨ (Rect.block (s := S4x4096x32x128) S1x256x32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x32x128.size a ≤ S1x1x32x128.size a
  hwx0_1 : ∀ i : grid0.Coords, EltTy.bits .f32 = 32 ∨ (Rect.block (s := S1x1x32x128) S1x1x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x32x128.size a ≤ S4x4096x32x128.size a
  hwx0_2 : ∀ i : grid0.Coords, EltTy.bits .f32 = 32 ∨ (Rect.block (s := S4x4096x32x128) S1x256x32x128.size (cc0_transform_2 i) (hinb0_2 i)).WholeWords (EltTy.packing .f32)

variable [Facts₀]

def gather_S4x4096x4096_S4096x1_S4x4096x4096_01_2_n_n_2_1_440961 : GatherDims S4x4096x4096 S4096x1 S4x4096x4096 where
  offsetDims := [0, 1]
  collapsedSliceDims := [2]
  operandBatchingDims := []
  startIndicesBatchingDims := []
  startIndexMap := [2]
  indexVectorDim := 1
  sliceSizes := ![4, 4096, 1]
  wf := gather_S4x4096x4096_S4096x1_S4x4096x4096_01_2_n_n_2_1_440961_wf
def gather_S4096_S4096x1_S4096_n_0_n_n_0_1_1 : GatherDims S4096 S4096x1 S4096 where
  offsetDims := []
  collapsedSliceDims := [0]
  operandBatchingDims := []
  startIndicesBatchingDims := []
  startIndexMap := [0]
  indexVectorDim := 1
  sliceSizes := ![1]
  wf := gather_S4096_S4096x1_S4096_n_0_n_n_0_1_1_wf
def comparator_i32_i32_d0 : BitVec 32 × BitVec 32 → BitVec 32 × BitVec 32 → BitVec 1 :=
  fun l r =>
    let v2 := IntOp.cmpi .slt l.1 r.1
    v2

abbrev win0_0 : Pipeline.Window sig grid0 :=
  Pipeline.Window.ofSpec (Memref.whole main_v5) S1x256x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x1x32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256x32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x32x4096x128 : Shape := ⟨4, ![4, 32, 4096, 128]⟩
abbrev S4096 : Shape := ⟨1, ![4096]⟩
abbrev S4x4096x32x128 : Shape := ⟨4, ![4, 4096, 32, 128]⟩
abbrev S4x4096x4096 : Shape := ⟨3, ![4, 4096, 4096]⟩
abbrev S1x1x4096 : Shape := ⟨3, ![1, 1, 4096]⟩
abbrev S_ : Shape := ⟨0, ![]⟩
abbrev S4096x1 : Shape := ⟨2, ![4096, 1]⟩
abbrev S4x4096x32 : Shape := ⟨3, ![4, 4096, 32]⟩
abbrev S4x4096x32x1 : Shape := ⟨4, ![4, 4096, 32, 1]⟩

abbrev nBuf : Space → Nat
  | .hbm => 72
  | .vmem => 0
  | .smem => 0
  | _ => 0

abbrev bufTy : (tb : Table) → Fin (tcTables nBuf tb) → BufTy
  | .hbm, ⟨0, _⟩ => ⟨S4x32x4096x128, .f32⟩
  | .hbm, ⟨1, _⟩ => ⟨S4096, .f32⟩
  | .hbm, ⟨2, _⟩ => ⟨S4096, .i32⟩
  | .hbm, ⟨3, _⟩ => ⟨S4x4096x32x128, .f32⟩
  | .hbm, ⟨4, _⟩ => ⟨S4x4096x4096, .f32⟩
  | .hbm, ⟨5, _⟩ => ⟨S1x1x4096, .f32⟩
  | .hbm, ⟨6, _⟩ => ⟨S4x4096x4096, .f32⟩
  | .hbm, ⟨7, _⟩ => ⟨S4x4096x4096, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4x4096x4096, .f32⟩
  | .hbm, ⟨17, _⟩ => ⟨S4x4096x32x128, .f32⟩
  | .hbm, ⟨18, _⟩ => ⟨S_, .f32⟩
  | .hbm, ⟨19, _⟩ => ⟨S4x4096x32, .f32⟩
  | .hbm, ⟨20, _⟩ => ⟨S4x4096x32x1, .f32⟩
  | .hbm, ⟨21, _⟩ => ⟨S_, .f32⟩
  | .hbm, ⟨22, _⟩ => ⟨S4x4096x32x1, .f32⟩
  | .hbm, ⟨23, _⟩ => ⟨S4x4096x32x1, .f32⟩
  | .hbm, ⟨24, _⟩ => ⟨S_, .f32⟩
  | .hbm, ⟨25, _⟩ => ⟨S4x4096x32, .f32⟩
  | .hbm, ⟨26, _⟩ => ⟨S4x4096x32x1, .f32⟩
  | .hbm, ⟨27, _⟩ => ⟨S_, .f32⟩
  | .hbm, ⟨28, _⟩ => ⟨S4x4096x32x1, .f32⟩
  | .hbm, ⟨29, _⟩ => ⟨S4x4096x32x1, .f32⟩
  | .hbm, ⟨30, _⟩ => ⟨S4x4096x32x1, .f32⟩
  | .hbm, ⟨31, _⟩ => ⟨S_, .f32⟩
  | .hbm, ⟨32, _⟩ => ⟨S4x4096x32x1, .f32⟩
  | .hbm, ⟨33, _⟩ => ⟨S4x4096x32x1, .f32⟩
  | .hbm, ⟨34, _⟩ => ⟨S_, .f32⟩
  | .hbm, ⟨35, _⟩ => ⟨S4x4096x32x1, .f32⟩
  | .hbm, ⟨36, _⟩ => ⟨S4x4096x32x1, .f32⟩
  | .hbm, ⟨37, _⟩ => ⟨S4x4096x32x128, .f32⟩
  | .hbm, ⟨38, _⟩ => ⟨S4x4096x32x128, .f32⟩
  | .hbm, ⟨39, _⟩ => ⟨S4x4096x32x128, .f32⟩
  | .hbm, ⟨40, _⟩ => ⟨S4x4096x32x128, .f32⟩
  | .hbm, ⟨41, _⟩ => ⟨S_, .f32⟩
  | .hbm, ⟨42, _⟩ => ⟨S_, .i32⟩
  | .hbm, ⟨43, _⟩ => ⟨S_, .f32⟩
  | .hbm, ⟨44, _⟩ => ⟨S4x4096x32x128, .f32⟩
  | .hbm, ⟨45, _⟩ => ⟨S4x4096x32x128, .f32⟩
  | .hbm, ⟨46, _⟩ => ⟨S_, .f32⟩
  | .hbm, ⟨47, _⟩ => ⟨S4x4096x32x128, .f32⟩
  | .hbm, ⟨48, _⟩ => ⟨S4x4096x32x128, .f32⟩
  | .hbm, ⟨49, _⟩ => ⟨S4x4096x32x128, .f32⟩
  | .hbm, ⟨50, _⟩ => ⟨S4x4096x32x128, .f32⟩
  | .hbm, ⟨51, _⟩ => ⟨S4x4096x32x128, .f32⟩
  | .hbm, ⟨52, _⟩ => ⟨S4x4096x32x128, .f32⟩
  | .hbm, ⟨53, _⟩ => ⟨S4x4096x32x128, .f32⟩
  | .hbm, ⟨54, _⟩ => ⟨S4x4096x4096, .f32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .i32⟩
  | .hbm, ⟨65, _⟩ => ⟨S4096x1, .i32⟩
  | .hbm, ⟨66, _⟩ => ⟨S4x4096x4096, .f32⟩
  | .hbm, ⟨67, _⟩ => ⟨S1x1x4096, .f32⟩
  | .hbm, ⟨68, _⟩ => ⟨S4x4096x4096, .f32⟩
  | .hbm, ⟨69, _⟩ => ⟨S4x4096x4096, .f32⟩
  | .hbm, ⟨70, _⟩ => ⟨S4x4096x32x128, .f32⟩
  | .hbm, ⟨71, _⟩ => ⟨S4x32x4096x128, .f32⟩
  | _, _ => ⟨S4x32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_c_7 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call2_v0 : Ref sig .tc := ⟨.hbm, 55, rfl⟩
abbrev main_call2_v1_0 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]

class Facts₀ : Prop where
  transposes_S4x32x4096x128_S4x4096x32x128_0_2_1_3 : S4x32x4096x128.Transposes [0, 2, 1, 3] S4x4096x32x128
  shapeCasts_S4x4096x32x128_S4x4096x4096 : S4x4096x32x128.ShapeCasts S4x4096x4096
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4096 : S_.BroadcastsInDim S4096 (![] : Fin 0 → Fin S4096.rank)
  bcast_S4096_S4096x1_0 : S4096.BroadcastsInDim S4096x1 (![0] : Fin 1 → Fin S4096x1.rank)
  shapeCasts_S4x4096x4096_S4x4096x32x128 : S4x4096x4096.ShapeCasts S4x4096x32x128
  reducesTo_S4x4096x32x128_S4x4096x32_d3 : S4x4096x32x128.ReducesTo [3] S4x4096x32
  h_S_ : 0 < S_.numel
  bcast_S4x4096x32_S4x4096x32x1_0_1_2 : S4x4096x32.BroadcastsInDim S4x4096x32x1 (![0, 1, 2] : Fin 3 → Fin S4x4096x32x1.rank)
  bcast_S_S4x4096x32x1 : S_.BroadcastsInDim S4x4096x32x1 (![] : Fin 0 → Fin S4x4096x32x1.rank)
  bcast_S4x4096x32x1_S4x4096x32x128_0_1_2_3 : S4x4096x32x1.BroadcastsInDim S4x4096x32x128 (![0, 1, 2, 3] : Fin 4 → Fin S4x4096x32x128.rank)
  bcast_S_S4x4096x32x128 : S_.BroadcastsInDim S4x4096x32x128 (![] : Fin 0 → Fin S4x4096x32x128.rank)
  transposes_S4x4096x32x128_S4x32x4096x128_0_2_1_3 : S4x4096x32x128.Transposes [0, 2, 1, 3] S4x32x4096x128
  gather_S4x4096x4096_S4096x1_S4x4096x4096_01_2_n_n_2_1_440961_wf : GatherDims.WF S4x4096x4096 S4096x1 S4x4096x4096 [0, 1] [2] [] [2] [] 1 ![4, 4096, 1]

variable [Facts₀]

def gather_S4x4096x4096_S4096x1_S4x4096x4096_01_2_n_n_2_1_440961 : GatherDims S4x4096x4096 S4096x1 S4x4096x4096 where
  offsetDims := [0, 1]
  collapsedSliceDims := [2]
  operandBatchingDims := []
  startIndicesBatchingDims := []
  startIndexMap := [2]
  indexVectorDim := 1
  sliceSizes := ![4, 4096, 1]
  wf := gather_S4x4096x4096_S4096x1_S4x4096x4096_01_2_n_n_2_1_440961_wf
def comparator_i32_i32_d0 : BitVec 32 × BitVec 32 → BitVec 32 × BitVec 32 → BitVec 1 :=
  fun l r =>
    let v2 := IntOp.cmpi .slt l.1 r.1
    v2

class Facts : Prop extends Facts₀ where

variable [Facts]
-- ==== Proof.Spec.lean ====
/-
  The mathematics both programs compute, with no program in sight.

  The hidden axis of 4096 channels is read through an index table `ridx`: entry `j` of the reordered axis reads channel
  `src ridx j` (the table's word clamped into the axis). The reordered axis is cut into 32 groups of 128 lanes; each
  group is quantised against its own minimum and maximum (both scaled by 0.96), to four levels, and dequantised
  (`deqRow`). The result is carried back through the stable sorting permutation of the table (`srt`: position `k` of
  the sorted table comes from position `srt ridx k`) and divided by the smoothing scale of the channel it lands on.
  When the table is a permutation of 0 … 4095 (`IsPerm`: it sorts to the identity table), `src ridx (srt ridx k) = k`,
  which is the one fact that joins the two programs.
-/
import Idealize.ShloMosaic.PureOps.Ideal
import Idealize.ShloMosaic.Lib.ValueIdx
import Idealize.ShloMosaic.Lib.SortFacts

noncomputable section

namespace Cert.Spec

open Idealize.ShloMosaic Idealize.ShloMosaic.ValueIdx

abbrev T4096 : Shape := ⟨1, ![4096]⟩
abbrev T4x32x4096x128 : Shape := ⟨4, ![4, 32, 4096, 128]⟩

/-- A start-index word read signed and clamped into an axis of 4096 entries. -/
def clampIdx (w : BitVec 32) : Fin 4096 := ⟨min w.toInt.toNat 4095, by omega⟩

/-- The channel that entry `j` of the reordered axis reads. -/
def src (ridx : IVec T4096 32) (j : Fin 4096) : Fin 4096 := clampIdx (ridx (Shape.Idx.ofFin j))

/-- The stable sort of the table by signed `<`: sorted position `k` holds the word of position `srt ridx k`. -/
def srt (ridx : IVec T4096 32) : Fin 4096 → Fin 4096 :=
  sortedFrom (fun k k' => IntOp.cmpi .slt (ridx (Shape.Idx.ofFin k)) (ridx (Shape.Idx.ofFin k')) == 1#1)

/-- The table sorts to 0, 1, …, 4095: it is a permutation of the channel positions. -/
def IsPerm (ridx : IVec T4096 32) : Prop :=
  ∀ j, Host.sort T4096 0 (fun l r : BitVec 32 => IntOp.cmpi .slt l r) ridx j = iotaInDim T4096 32 0 j

/-- Group and lane of a position of the 4096-axis, and back. -/
def hi (j : Fin 4096) : Fin 32 := ⟨j.val / 128, by omega⟩
def lo (j : Fin 4096) : Fin 128 := ⟨j.val % 128, by omega⟩
def join (g : Fin 32) (l : Fin 128) : Fin 4096 := ⟨g.val * 128 + l.val, by omega⟩

theorem join_hi_lo (j : Fin 4096) : join (hi j) (lo j) = j := by
  apply Fin.ext; simp only [join, hi, lo]; omega
theorem hi_join (g : Fin 32) (l : Fin 128) : hi (join g l) = g := by
  apply Fin.ext; simp only [join, hi]; omega
theorem lo_join (g : Fin 32) (l : Fin 128) : lo (join g l) = l := by
  apply Fin.ext; simp only [join, lo]; omega

/-- The constants of the quantiser, as the words both programs carry. -/
def c96 : EReal := Ideal.ofBits .f32 0x3F75C28F#32
def c3 : EReal := Ideal.ofBits .f32 0x40400000#32
def cEps : EReal := Ideal.ofBits .f32 0x3727C5AC#32
def c0 : EReal := Ideal.ofBits .f32 0x00000000#32
def pInf : EReal := Ideal.ofBits .f32 0x7F800000#32
def nInf : EReal := Ideal.ofBits .f32 0xFF800000#32

/-- A group's clipped minimum and maximum. -/
def rowMin (g : Fin 128 → EReal) : EReal := (Finset.univ : Finset (Fin 128)).fold min pInf g * c96
def rowMax (g : Fin 128 → EReal) : EReal := (Finset.univ : Finset (Fin 128)).fold max nInf g * c96
/-- The quantisation step, never below the floor `cEps`. -/
def rowScale (g : Fin 128 → EReal) : EReal := max (Ideal.div (rowMax g - rowMin g) c3) cEps
/-- Lane `l` of a group quantised to the levels 0 … 3 and dequantised. -/
def deqRow (g : Fin 128 → EReal) (l : Fin 128) : EReal :=
  Ideal.liftRound Ideal.roundHalfEven (min c3 (max c0 (Ideal.div (g l - rowMin g) (rowScale g)))) * rowScale g + rowMin g

/-- The input laid out as [batch, position, channel]: channel `h` is head `h / 128`, lane `h % 128`. -/
def xflat (tensor : T4x32x4096x128.Idx → EReal) (b : Fin 4) (s : Fin 4096) (h : Fin 4096) : EReal :=
  tensor (ix4 b (hi h) s (lo h))

/-- Group `g` of the smoothed, reordered row at (batch `b`, position `s`). -/
def grp (tensor : T4x32x4096x128.Idx → EReal) (smooth : T4096.Idx → EReal) (ridx : IVec T4096 32)
    (b : Fin 4) (s : Fin 4096) (g : Fin 32) : Fin 128 → EReal :=
  fun l => xflat tensor b s (src ridx (join g l)) * smooth (ix1 (src ridx (join g l)))

/-- What the quantiser does to a whole [4, 4096, 32, 128] array of reordered values `a` given the reordered scales `sc`
    (laid out [1, 1, 32, 128]): every group of 128 lanes is smoothed by its scales, quantised and dequantised, and
    divided by the same scales again. -/
def regionFn (a : (⟨4, ![4, 4096, 32, 128]⟩ : Shape).Idx → EReal) (sc : (⟨4, ![1, 1, 32, 128]⟩ : Shape).Idx → EReal) :
    (⟨4, ![4, 4096, 32, 128]⟩ : Shape).Idx → EReal :=
  fun i => Ideal.div (deqRow (fun l => a (ix4 (i 0) (i 1) (i 2) l) * sc (ix4 0 0 (i 2) l)) (i 3)) (sc (ix4 0 0 (i 2) (i 3)))

/-- The result: at (batch, head, position, lane) the dequantised entry that the sort carries to channel
    `p = head * 128 + lane`, over that channel's smoothing scale. -/
def G (tensor : T4x32x4096x128.Idx → EReal) (smooth : T4096.Idx → EReal) (ridx : IVec T4096 32) :
    T4x32x4096x128.Idx → EReal :=
  fun i => Ideal.div (deqRow (grp tensor smooth ridx (i 0) (i 2) (hi (srt ridx (join (i 1) (i 3))))) (lo (srt ridx (join (i 1) (i 3)))))
    (smooth (ix1 (join (i 1) (i 3))))

end Cert.Spec

end
-- ==== Proof.PreDecode.lean ====
/-
  The precondition's last conjunct says that the index table is a permutation.

  The precondition is a conjunction of three all-reductions. The last one compares the stable sort of the
  index table, entry by entry, with the identity table 0, 1, …, 4095. The conjunction being 1 makes that reduction 1,
  an all-reduction by `and` that is 1 met only 1s, and an equality compare that is 1 is an equality of words: the
  table sorts to the identity table, which is `IsPerm`.
-/
import proofs.«427747_j82978768159600_2_alg».proof.Pre_finite_inputs
import proofs.«427747_j82978768159600_2_alg».proof.Proof.Gen.Pre_finite_inputs
import proofs.«427747_j82978768159600_2_alg».proof.Proof.Spec
import Idealize.ShloMosaic.Lib.ReduceAll
import Idealize.ShloMosaic.Lib.StableHlo.Predicate

noncomputable section

namespace Cert.PreDecode

open Idealize.ShloMosaic

/-- The rank-0 shape has one index. -/
instance : Subsingleton Cert.Pre_finite_inputs.S_.Idx := ⟨fun a b => funext fun d => d.elim0⟩

/-- Inputs that satisfy the precondition carry an index table that sorts to 0, 1, …, 4095. -/
theorem isPerm_of_pre {F : FTy → Type} [FloatOps F]
    (x0 : FVec F Cert.Pre_finite_inputs.S4x32x4096x128 .f32) (x1 : FVec F Cert.Pre_finite_inputs.S4096 .f32)
    (x2 : IVec Cert.Pre_finite_inputs.S4096 32)
    (h : Cert.Pre_finite_inputs.fn (F := F) x0 x1 x2 = fun _ => 1#1) : Cert.Spec.IsPerm x2 := by
  have h0 := congrFun h ValueIdx.ix0
  dsimp only [Cert.Pre_finite_inputs.fn] at h0
  -- the conjunction is 1, so its last conjunct, the all-reduction of the entrywise equality, is 1
  have h12 := (IntOp.andi_eq_one.1 h0).2
  intro j
  -- hence every entry of the equality compare is 1
  have e := Host.reduce_andi_all _ _ _ _ _ h12 j
  -- and the compared words are equal; the comparator is signed `<`
  exact StableHlo.Predicate.cmpi_eq_iff.1 e

end Cert.PreDecode

end
-- ==== Proof.KernelNames.lean ====
/-
  Names for the kernel program's arrays, read as plain functions of an index: the three arguments on a core, the
  array its one call writes, and the array the program returns.
-/
import proofs.«427747_j82978768159600_2_alg».proof.Proof.Gen.KernelIdeal.Frame
import proofs.«427747_j82978768159600_2_alg».proof.Proof.Spec

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (c : Dev nD)

/-- The input tensor [4, 32, 4096, 128], the smoothing scales [4096] and the index table [4096] on core `c`. -/
abbrev tensorOf : S4x32x4096x128.Idx → EReal := m ((c.tc : Thread nD τ).loc main_arg0)
abbrev smoothOf : S4096.Idx → EReal := m ((c.tc : Thread nD τ).loc main_arg1)
abbrev ridxOf : IVec S4096 32 := m ((c.tc : Thread nD τ).loc main_arg2)
/-- What the call leaves in its result array [4, 4096, 32, 128] after the last grid point. -/
abbrev outArr : S4x4096x32x128.Idx → EReal := (dats m 0 c).arrAt 2 cfg0.N
/-- What the program returns, [4, 32, 4096, 128]: the host operations after the call applied to that array. -/
abbrev resArr : S4x32x4096x128.Idx → EReal :=
  Pipeline.afterTail₀ cfgs (dats m) 0 (V0 m) [hostOps1, hostOps1_1, hostOps1_2] c main_v11

end Cert.KernelIdeal.Val

end
-- ==== Proof.Perm.lean ====
/-
  An index table that sorts to 0, 1, …, 4095 is a permutation of the channel positions.

  The stable sort reads the table through a bijection `srt` of the positions (sorted position `k` holds the word of
  position `srt k`). If the sorted table is the identity table then the word at `srt k` is `k`: every word is below
  4096 (each position is some `srt k`), reading the table at `srt k` gives back `k`, and an argsort (the same sort
  carrying the positions 0, 1, … along) returns `srt` itself.
-/
import proofs.«427747_j82978768159600_2_alg».proof.Proof.Spec
import Idealize.ShloMosaic.Lib.StableHlo.Predicate

noncomputable section

namespace Cert.Spec

open Idealize.ShloMosaic

/-- A one-bit word that is not 1 is 0. -/
private theorem bit_eq_zero_of_ne_one {v : BitVec 1} (h : v ≠ 1#1) : v = 0#1 := by
  have hc : ∀ u : BitVec 1, u = 0#1 ∨ u = 1#1 := by decide
  rcases hc v with e | e
  · exact e
  · exact absurd e h

/-- A word below 4096 is its own clamp. -/
theorem clampIdx_ofNat (k : Fin 4096) : clampIdx (BitVec.ofNat 32 k.val) = k := by
  apply Fin.ext
  have hk := k.isLt
  simp only [clampIdx, StableHlo.Predicate.toInt_ofNat_small k.val (by omega), Int.toNat_natCast]
  omega

/-- A word below 4096 is not negative, is at least 0 and at most 4095, read signed. -/
theorem slt_zero_of_small {w : BitVec 32} (hw : w.toNat < 4096) : IntOp.cmpi .slt w 0#32 = 0#1 := by
  apply bit_eq_zero_of_ne_one
  intro e
  have h0 : (0#32 : BitVec 32).toNat < 2 ^ 31 := by decide
  have := (StableHlo.Predicate.slt_iff_toNat (a := w) (b := 0#32) (by omega) h0).mp e
  simp at this
theorem sge_zero_of_small {w : BitVec 32} (hw : w.toNat < 4096) : IntOp.cmpi .sge w 0#32 = 1#1 := by
  have h0 : (0#32 : BitVec 32).toNat < 2 ^ 31 := by decide
  exact (StableHlo.Predicate.sge_iff_toNat (a := w) (b := 0#32) (by omega) h0).mpr (by simp)
theorem sle_max_of_small {w : BitVec 32} (hw : w.toNat < 4096) : IntOp.cmpi .sle w 4095#32 = 1#1 := by
  have h0 : (4095#32 : BitVec 32).toNat = 4095 := by decide
  exact (StableHlo.Predicate.sle_iff_toNat (a := w) (b := 4095#32) (by omega) (by omega)).mpr (by omega)

/-- Sorted position `k` of a table that sorts to the identity holds the word `k`. -/
theorem srt_word {ridx : IVec T4096 32} (h : IsPerm ridx) (k : Fin 4096) :
    ridx (Shape.Idx.ofFin (srt ridx k)) = BitVec.ofNat 32 k.val := by
  have e := h (Shape.Idx.ofFin k)
  rw [Host.sort_rank1] at e
  simpa [iotaInDim, srt] using e

/-- Every word of such a table is below 4096. -/
theorem word_small {ridx : IVec T4096 32} (h : IsPerm ridx) (j : T4096.Idx) : (ridx j).toNat < 4096 := by
  obtain ⟨k, hk⟩ := sortedFrom_surjective
    (fun k k' => IntOp.cmpi .slt (ridx (Shape.Idx.ofFin k)) (ridx (Shape.Idx.ofFin k')) == 1#1) (j 0)
  have e : ridx j = BitVec.ofNat 32 k.val := by
    rw [Shape.Idx.eq_ofFin (n := 4096) j, ← hk]; exact srt_word h k
  have hk' := k.isLt
  rw [e, BitVec.toNat_ofNat]
  omega

/-- Reading the table at the sort's source of `k` gives `k` back. -/
theorem src_srt {ridx : IVec T4096 32} (h : IsPerm ridx) (k : Fin 4096) : src ridx (srt ridx k) = k := by
  unfold src
  rw [srt_word h k]
  exact clampIdx_ofNat k

/-- On a rank-1 shape the second result of a two-operand sort along axis 0 reads its operand through one self-map of
    the positions, the stable sorting permutation of the pairs. -/
theorem sort2_rank1_snd {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- An argsort — the sort by the first component, carrying the positions along — returns the sort's position map,
    for any table. -/
theorem argsort_apply (cmp : BitVec 32 × BitVec 32 → BitVec 32 × BitVec 32 → BitVec 1)
    (hcmp : ∀ l r, cmp l r = IntOp.cmpi .slt l.1 r.1) (ridx : IVec T4096 32) (k : Fin 4096) :
    (Host.sort2 T4096 0 cmp ridx (iotaInDim T4096 32 0)).2 (Shape.Idx.ofFin k) = BitVec.ofNat 32 (srt ridx k).val := by
  rw [sort2_rank1_snd]
  simp only [hcmp, Shape.Idx.ofFin_zero, StableHlo.Predicate.iota_apply, srt]

/-- Its words are below 4096 … -/
theorem argsort_small (cmp : BitVec 32 × BitVec 32 → BitVec 32 × BitVec 32 → BitVec 1)
    (hcmp : ∀ l r, cmp l r = IntOp.cmpi .slt l.1 r.1) (ridx : IVec T4096 32) (j : T4096.Idx) :
    ((Host.sort2 T4096 0 cmp ridx (iotaInDim T4096 32 0)).2 j).toNat < 4096 := by
  obtain ⟨k, rfl⟩ : ∃ k : Fin 4096, j = Shape.Idx.ofFin k := ⟨j 0, Shape.Idx.eq_ofFin (n := 4096) j⟩
  rw [argsort_apply cmp hcmp ridx k, BitVec.toNat_ofNat]
  have := (srt ridx k).isLt
  omega

/-- … and clamp to the position map. -/
theorem clampIdx_argsort (cmp : BitVec 32 × BitVec 32 → BitVec 32 × BitVec 32 → BitVec 1)
    (hcmp : ∀ l r, cmp l r = IntOp.cmpi .slt l.1 r.1) (ridx : IVec T4096 32) (k : Fin 4096) :
    clampIdx ((Host.sort2 T4096 0 cmp ridx (iotaInDim T4096 32 0)).2 (Shape.Idx.ofFin k)) = srt ridx k := by
  rw [argsort_apply cmp hcmp ridx k]
  exact clampIdx_ofNat (srt ridx k)

end Cert.Spec

end
-- ==== Proof.KernelBody.lean ====
/-
  The quantiser's arithmetic on one block, read at an index.

  A block is 256 rows of 32 groups of 128 lanes, with one [32, 128] table of scales shared by every row. The block is
  smoothed (each entry times its lane's scale); each group's minimum and maximum over its 128 lanes are taken, scaled
  by 0.96 and kept as columns; the quantisation step is a third of their distance, never below its floor; each entry
  is moved to the group's minimum, measured in steps, clamped to 0 … 3, rounded to even, and carried back; the result
  is divided by the lane's scale again. Read at row r, group g, lane l this is `deqRow` of the group's 128 smoothed
  lanes, over the lane's scale (`pay_apply`).
-/
import proofs.«427747_j82978768159600_2_alg».proof.Proof.Gen.KernelIdeal.Frame
import proofs.«427747_j82978768159600_2_alg».proof.Proof.Spec
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen Cert.Spec Idealize.ShloMosaic Idealize.ShloMosaic.ValueIdx

/-! ## The layout steps of the block, read at an index -/

/-- A [1,256,32] vector given a trailing unit axis reads, at (a, r, g, u), its entry (a, r, g). -/
theorem keepdims_apply {α : Type} (x : S1x256x32.Idx → α) (h : S1x256x32.ShapeCasts S1x256x32x1)
    (a : Fin 1) (r : Fin 256) (g : Fin 32) (u : Fin 1) :
    shapeCast S1x256x32x1 x h (ix4 a r g u) = x (ix3 a r g) :=
  shapeCast_apply x h _ _ (by
    have hu : u.val = 0 := by omega
    rw [Shape.rowMajor_val_three, Shape.rowMajor_val_four]
    show (a.val * 256 + r.val) * 32 + g.val = ((a.val * 256 + r.val) * 32 + g.val) * 1 + u.val
    omega)

/-- A [1,256,32,1] column repeated along 128 lanes reads, at (a, r, g, l), its entry (a, r, g, 0). -/
theorem lanes_apply {α : Type} (x : S1x256x32x1.Idx → α) (h : S1x256x32x1.Broadcasts S1x256x32x128)
    (a : Fin 1) (r : Fin 256) (g : Fin 32) (l : Fin 128) :
    broadcastTo S1x256x32x128 x h (ix4 a r g l) = x (ix4 a r g (0 : Fin 1)) := by
  refine broadcastTo_apply x h _ _ fun ax => ?_
  match ax with
  | ⟨0, _⟩ => show a.val = 0; omega
  | ⟨1, _⟩ => rfl
  | ⟨2, _⟩ => rfl
  | ⟨3, _⟩ => rfl

/-- The [1,1,32,128] scales repeated along 256 rows read, at (a, r, g, l), their entry (0, 0, g, l). -/
theorem rows_apply {α : Type} (x : S1x1x32x128.Idx → α) (h : S1x1x32x128.Broadcasts S1x256x32x128)
    (a : Fin 1) (r : Fin 256) (g : Fin 32) (l : Fin 128) :
    broadcastTo S1x256x32x128 x h (ix4 a r g l) = x (ix4 (0 : Fin 1) (0 : Fin 1) g l) := by
  refine broadcastTo_apply x h _ _ fun ax => ?_
  match ax with
  | ⟨0, _⟩ => rfl
  | ⟨1, _⟩ => rfl
  | ⟨2, _⟩ => rfl
  | ⟨3, _⟩ => rfl

/-! ## The two lane reductions -/

/-- The index of a block over (a, r, g) with lane l inserted on the last axis. -/
theorem lift_lane (h : S1x256x32x128.Reduces [3] S1x256x32) (a : Fin 1) (r : Fin 256) (g : Fin 32) (l : Fin 128) :
    h.lift (ix3 a r g) l = ix4 a r g l := by
  funext c; apply Fin.ext
  match c with
  | ⟨0, _⟩ => rfl
  | ⟨1, _⟩ => rfl
  | ⟨2, _⟩ => rfl
  | ⟨3, _⟩ => rfl

/-- The minimum over the 128 lanes of a block, at (a, r, g): the fold of `min` from +∞ over the lanes. -/
theorem laneMin_apply (v : FVec Ideal S1x256x32x128 .f32) (h : S1x256x32x128.Reduces [3] S1x256x32)
    (hφ : FKind.Formats .f32) (hacc : (0x7F800000#32 : BitVec 32) = 0x7F800000#32)
    (a : Fin 1) (r : Fin 256) (g : Fin 32) :
    multiReduction .minimumf [3] S1x256x32 v 0x7F800000#32 h hφ hacc (ix3 a r g)
      = (Finset.univ : Finset (Fin 128)).fold min pInf (fun l => v (ix4 a r g l)) := by
  refine (multiReduction_minimumf_eq_fold v _ h hφ hacc (ix3 a r g)).trans ?_
  refine (h.fold_filter_drop_single _ _ v (ix3 a r g)).trans ?_
  have e : v ∘ h.lift (ix3 a r g) = fun l : Fin 128 => v (ix4 a r g l) := funext fun l => congrArg v (lift_lane h a r g l)
  rw [e]; rfl

/-- The maximum over the 128 lanes of a block, at (a, r, g): the fold of `max` from −∞ over the lanes. -/
theorem laneMax_apply (v : FVec Ideal S1x256x32x128 .f32) (h : S1x256x32x128.Reduces [3] S1x256x32)
    (hφ : FKind.Formats .f32) (hacc : (0xFF800000#32 : BitVec 32) = 0xFF800000#32)
    (a : Fin 1) (r : Fin 256) (g : Fin 32) :
    multiReduction .maximumf [3] S1x256x32 v 0xFF800000#32 h hφ hacc (ix3 a r g)
      = (Finset.univ : Finset (Fin 128)).fold max nInf (fun l => v (ix4 a r g l)) := by
  refine (Ideal.multiReduction_maximumf_single v _ h hφ hacc (ix3 a r g)).trans ?_
  have e : v ∘ h.lift (ix3 a r g) = fun l : Fin 128 => v (ix4 a r g l) := funext fun l => congrArg v (lift_lane h a r g l)
  rw [e]; rfl

/-! ## The block's arithmetic, piece by piece -/

/-- The block smoothed: every row of 32 × 128 entries times the scales. -/
def smoothed (x0 : Vec Ideal S1x256x32x128 .f32) (x1 : Vec Ideal S1x1x32x128 .f32) : FVec Ideal S1x256x32x128 .f32 :=
  mulf (shapeCast S1x256x32x128 x0 shapeCasts_S1x256x32x128_S1x256x32x128)
    (broadcastTo S1x256x32x128 (shapeCast S1x1x32x128 x1 shapeCasts_S1x1x32x128_S1x1x32x128) broadcasts_S1x1x32x128_S1x256x32x128)

/-- Each group's clipped minimum, as a [1,256,32,1] column. -/
def minCol (x0 : Vec Ideal S1x256x32x128 .f32) (x1 : Vec Ideal S1x1x32x128 .f32) : FVec Ideal S1x256x32x1 .f32 :=
  mulf (shapeCast S1x256x32x1 (multiReduction .minimumf [3] S1x256x32 (smoothed x0 x1) 0x7F800000#32 reduces_S1x256x32x128_S1x256x32 (.inl rfl) rfl) shapeCasts_S1x256x32_S1x256x32x1)
    (broadcast S1x256x32x1 (Scalar.ofBits .f32 0x3F75C28F#32))

/-- Each group's clipped maximum, as a [1,256,32,1] column. -/
def maxCol (x0 : Vec Ideal S1x256x32x128 .f32) (x1 : Vec Ideal S1x1x32x128 .f32) : FVec Ideal S1x256x32x1 .f32 :=
  mulf (shapeCast S1x256x32x1 (multiReduction .maximumf [3] S1x256x32 (smoothed x0 x1) 0xFF800000#32 reduces_S1x256x32x128_S1x256x32 (.inl rfl) rfl) shapeCasts_S1x256x32_S1x256x32x1)
    (broadcast S1x256x32x1 (Scalar.ofBits .f32 0x3F75C28F#32))

/-- Each group's quantisation step, as a [1,256,32,1] column. -/
def stepCol (x0 : Vec Ideal S1x256x32x128 .f32) (x1 : Vec Ideal S1x1x32x128 .f32) : FVec Ideal S1x256x32x1 .f32 :=
  maximumf (divf (subf (maxCol x0 x1) (minCol x0 x1)) (broadcast S1x256x32x1 (Scalar.ofBits .f32 0x40400000#32)))
    (broadcast S1x256x32x1 (Scalar.ofBits .f32 0x3727C5AC#32))

/-- The payload is the quantiser written over those pieces. -/
theorem pay_eq (x0 : Vec Ideal S1x256x32x128 .f32) (x1 : Vec Ideal S1x1x32x128 .f32) :
    k0_pay1 (F := Ideal) x0 x1
      = divf (addf (mulf (roundeven (minimumf (broadcast S1x256x32x128 (Scalar.ofBits .f32 0x40400000#32))
            (maximumf (broadcast S1x256x32x128 (Scalar.ofBits .f32 0x00000000#32))
              (divf (subf (smoothed x0 x1) (broadcastTo S1x256x32x128 (minCol x0 x1) broadcasts_S1x256x32x1_S1x256x32x128))
                (broadcastTo S1x256x32x128 (stepCol x0 x1) broadcasts_S1x256x32x1_S1x256x32x128)))))
          (broadcastTo S1x256x32x128 (stepCol x0 x1) broadcasts_S1x256x32x1_S1x256x32x128))
          (broadcastTo S1x256x32x128 (minCol x0 x1) broadcasts_S1x256x32x1_S1x256x32x128))
        (broadcastTo S1x256x32x128 (shapeCast S1x1x32x128 x1 shapeCasts_S1x1x32x128_S1x1x32x128) broadcasts_S1x1x32x128_S1x256x32x128) := rfl

/-- The four constants of the quantiser, as the block's arithmetic spells them. -/
theorem c96_eq : (Scalar.ofBits .f32 0x3F75C28F#32 : Ideal .f32) = c96 := rfl
theorem c3_eq : (Scalar.ofBits .f32 0x40400000#32 : Ideal .f32) = c3 := rfl
theorem cEps_eq : (Scalar.ofBits .f32 0x3727C5AC#32 : Ideal .f32) = cEps := rfl
theorem c0_eq : (Scalar.ofBits .f32 0x00000000#32 : Ideal .f32) = c0 := rfl

/-- A rounding to even at an index rounds the entry. -/
theorem roundeven_apply {s : Shape} {φ : FTy} (x : FVec Ideal s φ) (i : s.Idx) :
    roundeven x i = Ideal.liftRound Ideal.roundHalfEven (x i) := rfl

/-- The smoothed block at (a, r, g, l): the entry times lane l's scale of group g. -/
theorem smoothed_apply (x0 : Vec Ideal S1x256x32x128 .f32) (x1 : Vec Ideal S1x1x32x128 .f32)
    (a : Fin 1) (r : Fin 256) (g : Fin 32) (l : Fin 128) :
    smoothed x0 x1 (ix4 a r g l) = x0 (ix4 a r g l) * x1 (ix4 (0 : Fin 1) (0 : Fin 1) g l) := by
  unfold smoothed
  rw [shapeCast_self, shapeCast_self, mulf_apply, rows_apply]

/-- The minimum column at (a, r, g, u) is the group's clipped minimum. -/
theorem minCol_apply (x0 : Vec Ideal S1x256x32x128 .f32) (x1 : Vec Ideal S1x1x32x128 .f32)
    (a : Fin 1) (r : Fin 256) (g : Fin 32) (u : Fin 1) :
    minCol x0 x1 (ix4 a r g u) = rowMin (fun l => x0 (ix4 a r g l) * x1 (ix4 (0 : Fin 1) (0 : Fin 1) g l)) := by
  unfold minCol rowMin
  rw [mulf_apply, broadcast_apply, keepdims_apply, c96_eq, laneMin_apply]
  simp only [smoothed_apply]

/-- The maximum column at (a, r, g, u) is the group's clipped maximum. -/
theorem maxCol_apply (x0 : Vec Ideal S1x256x32x128 .f32) (x1 : Vec Ideal S1x1x32x128 .f32)
    (a : Fin 1) (r : Fin 256) (g : Fin 32) (u : Fin 1) :
    maxCol x0 x1 (ix4 a r g u) = rowMax (fun l => x0 (ix4 a r g l) * x1 (ix4 (0 : Fin 1) (0 : Fin 1) g l)) := by
  unfold maxCol rowMax
  rw [mulf_apply, broadcast_apply, keepdims_apply, c96_eq, laneMax_apply]
  simp only [smoothed_apply]

/-- The step column at (a, r, g, u) is the group's quantisation step. -/
theorem stepCol_apply (x0 : Vec Ideal S1x256x32x128 .f32) (x1 : Vec Ideal S1x1x32x128 .f32)
    (a : Fin 1) (r : Fin 256) (g : Fin 32) (u : Fin 1) :
    stepCol x0 x1 (ix4 a r g u) = rowScale (fun l => x0 (ix4 a r g l) * x1 (ix4 (0 : Fin 1) (0 : Fin 1) g l)) := by
  unfold stepCol rowScale
  rw [maximumf_apply, divf_apply, subf_apply, broadcast_apply, broadcast_apply, maxCol_apply, minCol_apply, c3_eq, cEps_eq]

/-- THE PAYLOAD AT (0, r, g, l): lane l of group g of row r, smoothed, quantised against the group's own range,
    dequantised, and divided by its scale again. -/
theorem pay_apply (x0 : Vec Ideal S1x256x32x128 .f32) (x1 : Vec Ideal S1x1x32x128 .f32) (r : Fin 256) (g : Fin 32) (l : Fin 128) :
    k0_pay1 (F := Ideal) x0 x1 (ix4 (0 : Fin 1) r g l)
      = Ideal.div (deqRow (fun l' => x0 (ix4 (0 : Fin 1) r g l') * x1 (ix4 (0 : Fin 1) (0 : Fin 1) g l')) l) (x1 (ix4 (0 : Fin 1) (0 : Fin 1) g l)) := by
  rw [pay_eq]
  unfold deqRow
  simp only [divf_apply, addf_apply, mulf_apply, subf_apply, roundeven_apply, minimumf_apply, maximumf_apply, broadcast_apply,
    lanes_apply, rows_apply, shapeCast_self, stepCol_apply, minCol_apply, smoothed_apply, c3_eq, c0_eq]

end Cert.KernelIdeal.Val

end
-- ==== Proof.KernelRegion.lean ====
/-
  The kernel's one call, read as a whole-array function.

  The call walks a grid of 4 × 16 points. At point (b, k) it stages rows 256·k … 256·k + 255 of batch b of the
  reordered input (all 32 groups, all 128 lanes) and the whole array of reordered scales, and writes the same rows of
  the result. Every row of a block is treated alone — each group of 128 lanes is smoothed, quantised, dequantised and
  divided by its scales (the payload read at an index) — so what a point writes back is the matching block of ONE
  function of the two whole arrays (`regionFn`). The 64 blocks tile the result array, so it ends holding that function.
-/
import proofs.«427747_j82978768159600_2_alg».proof.Proof.KernelNames
import proofs.«427747_j82978768159600_2_alg».proof.Proof.KernelBody
import Idealize.ShloMosaic.Lib.Pipeline.Value
import Idealize.ShloMosaic.Lib.ValueIdx

set_option maxRecDepth 16384

noncomputable section

namespace Cert.KernelIdeal.Val

open Cert.KernelIdeal Cert.KernelIdeal.Gen Cert.Spec Idealize.ShloMosaic Idealize.ShloMosaic.ValueIdx
  Idealize.ShloMosaic.TcCoe Idealize.SL.Sem
open Idealize.ShloMosaic.Pipeline (Dat)

variable (m : (ℓ : Loc nD τ sig) → Buf (Elt Ideal) ℓ) (c : Dev nD)

theorem hz4 : (![0, 0, 0, 0] : Fin 4 → Nat) = fun _ => 0 := funext fun a => by fin_cases a <;> rfl

/-- The block indices over the grid: the input's block moves with the result's (batch, then 256-row block), the
    scales' block never moves, and no window moves along the group or the lane axis. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = 0 ∧ win0_1.index t (1 : Fin 4) = 0
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) ≤ 3 ∧ win0_2.index t (1 : Fin 4) ≤ 15 :=
  (by decide +kernel : ∀ t : Fin grid0.N, _)

/-- Every (batch, row block) is some point's. -/
theorem idx_onto : ∀ (q0 : Fin 4) (q1 : Fin 16), ∃ t : Fin cfg0.N, win0_2.index t = ![q0.val, q1.val, 0, 0] :=
  (by decide +kernel : ∀ (q0 : Fin 4) (q1 : Fin 16), ∃ t : Fin grid0.N, win0_2.index t = ![q0.val, q1.val, 0, 0])

/-- `regionFn` at an index given by its coordinates. -/
theorem regionFn_at (a : S4x4096x32x128.Idx → EReal) (sc : S1x1x32x128.Idx → EReal) (b : Fin 4) (s : Fin 4096)
    (g : Fin 32) (l : Fin 128) :
    regionFn a sc (ix4 b s g l)
      = Ideal.div (deqRow (fun l' => a (ix4 b s g l') * sc (ix4 (0 : Fin 1) (0 : Fin 1) g l')) l)
          (sc (ix4 (0 : Fin 1) (0 : Fin 1) g l)) := rfl

/-- Window 0's block at point `t`, for any array in place of the reordered input: entry `x` is the array at batch
    `index 0`, row `256 · index 1 + x 1`, the same group and lane. -/
theorem blk0_read (A5 : S4x4096x32x128.Idx → EReal) (t : Fin cfg0.N) (x : S1x256x32x128.Idx) (k : S4x4096x32x128.Idx)
    (hk0 : (k 0).val = win0_2.index t (0 : Fin 4) + (x 0).val)
    (hk1 : (k 1).val = win0_2.index t (1 : Fin 4) * 256 + (x 1).val)
    (hk2 : (k 2).val = (x 2).val) (hk3 : (k 3).val = (x 3).val) :
    (((cfg0.win 0).blk t).view.read (Elt Ideal) A5 : S1x256x32x128.Idx → EReal) x = A5 k := by
  obtain ⟨e0, e1, e2, e3, -⟩ := idx_facts t
  rw [View.read_apply]
  show A5 _ = A5 k
  congr 1
  funext a
  apply Fin.ext
  match a with
  | ⟨0, _⟩ => show win0_0.index t (0 : Fin 4) * 1 + 1 * (x 0).val = (k 0).val; omega
  | ⟨1, _⟩ => show win0_0.index t (1 : Fin 4) * 256 + 1 * (x 1).val = (k 1).val; omega
  | ⟨2, _⟩ => show win0_0.index t (2 : Fin 4) * 32 + 1 * (x 2).val = (k 2).val; omega
  | ⟨3, _⟩ => show win0_0.index t (3 : Fin 4) * 128 + 1 * (x 3).val = (k 3).val; omega

/-- Window 1's block at every point is the whole array, for any array in place of the reordered scales. -/
theorem blk1_read (A6 : S1x1x32x128.Idx → EReal) (t : Fin cfg0.N) (x : S1x1x32x128.Idx) :
    (((cfg0.win 1).blk t).view.read (Elt Ideal) A6 : S1x1x32x128.Idx → EReal) x = A6 x := by
  obtain ⟨-, -, -, -, e4, e5, e6, e7, -⟩ := idx_facts t
  rw [View.read_apply]
  show A6 _ = A6 x
  congr 1
  funext a
  apply Fin.ext
  match a with
  | ⟨0, _⟩ => show win0_1.index t (0 : Fin 4) * 1 + 1 * (x 0).val = (x 0).val; omega
  | ⟨1, _⟩ => show win0_1.index t (1 : Fin 4) * 1 + 1 * (x 1).val = (x 1).val; omega
  | ⟨2, _⟩ => show win0_1.index t (2 : Fin 4) * 32 + 1 * (x 2).val = (x 2).val; omega
  | ⟨3, _⟩ => show win0_1.index t (3 : Fin 4) * 128 + 1 * (x 3).val = (x 3).val; omega

/-- What a point writes back, for ANY two arrays in place of the call's operands: block `t` of `regionFn` of them. -/
theorem flushed_core (A5 : S4x4096x32x128.Idx → EReal) (A6 : S1x1x32x128.Idx → EReal) (t : Fin cfg0.N) :
    (cfg0.win 2).cut (grid0.coords t)
        (k0_pay1 (F := Ideal) (((cfg0.win 0).blk t).view.read (Elt Ideal) A5) (((cfg0.win 1).blk t).view.read (Elt Ideal) A6))
      = ((cfg0.win 2).blk t).view.read (Elt Ideal) (regionFn A5 A6) := by
  obtain ⟨-, -, -, -, -, -, -, -, e8, e9, e10, e11⟩ := idx_facts t
  funext j
  have hj0 : (j 0).val < 1 := (j 0).isLt
  have hj1 : (j 1).val < 256 := (j 1).isLt
  have hj2 : (j 2).val < 32 := (j 2).isLt
  have hj3 : (j 3).val < 128 := (j 3).isLt
  -- the write-back reads the payload at the entry's own coordinates
  have hx : (cfg0.win 2).xinj (grid0.coords t) j
      = ix4 (0 : Fin 1) (⟨(j 1).val, hj1⟩ : Fin 256) (⟨(j 2).val, hj2⟩ : Fin 32) (⟨(j 3).val, hj3⟩ : Fin 128) := by
    funext a
    apply Fin.ext
    match a with
    | ⟨0, _⟩ => show (j 0).val = 0; omega
    | ⟨1, _⟩ => rfl
    | ⟨2, _⟩ => rfl
    | ⟨3, _⟩ => rfl
  -- where that entry sits in the result array
  have hi : ((cfg0.win 2).blk t).view.emb j
      = ix4 (⟨win0_2.index t (0 : Fin 4), by omega⟩ : Fin 4) (⟨win0_2.index t (1 : Fin 4) * 256 + (j 1).val, by omega⟩ : Fin 4096)
          (⟨(j 2).val, hj2⟩ : Fin 32) (⟨(j 3).val, hj3⟩ : Fin 128) := by
    funext a
    apply Fin.ext
    match a with
    | ⟨0, _⟩ => show win0_2.index t (0 : Fin 4) * 1 + 1 * (j 0).val = win0_2.index t (0 : Fin 4); omega
    | ⟨1, _⟩ => show win0_2.index t (1 : Fin 4) * 256 + 1 * (j 1).val = win0_2.index t (1 : Fin 4) * 256 + (j 1).val; omega
    | ⟨2, _⟩ => show win0_2.index t (2 : Fin 4) * 32 + 1 * (j 2).val = (j 2).val; omega
    | ⟨3, _⟩ => show win0_2.index t (3 : Fin 4) * 128 + 1 * (j 3).val = (j 3).val; omega
  rw [View.read_apply]
  show k0_pay1 (F := Ideal) _ _ ((cfg0.win 2).xinj (grid0.coords t) j) = regionFn A5 A6 (((cfg0.win 2).blk t).view.emb j)
  rw [hx, hi, pay_apply, regionFn_at]
  -- the row of the input block is the row of the array; the scales' block is the array
  refine congrArg₂ Ideal.div (congrArg (fun F => deqRow F (⟨(j 3).val, hj3⟩ : Fin 128)) (funext fun l' => ?_))
    (blk1_read A6 t _)
  exact congrArg₂ (fun (u v : EReal) => u * v)
    (blk0_read A5 t _ (ix4 (⟨win0_2.index t (0 : Fin 4), by omega⟩ : Fin 4)
        (⟨win0_2.index t (1 : Fin 4) * 256 + (j 1).val, by omega⟩ : Fin 4096) (⟨(j 2).val, hj2⟩ : Fin 32) l')
      (by show win0_2.index t (0 : Fin 4) = win0_2.index t (0 : Fin 4) + 0; omega) rfl rfl rfl)
    (blk1_read A6 t _)

/-- WHAT POINT `t` WRITES BACK is block `t` of `regionFn` of the two arrays as the call finds them. -/
theorem flushed_eq (t : Fin cfg0.N) :
    (dats m 0 c).flushed 2 t
      = ((cfg0.win 2).blk t).view.read (Elt Ideal) (regionFn (V m c main_v5) (V m c main_v6)) := by
  show (cfg0.win 2).cut (grid0.coords t) ((dats m 0 c).after 2 t) = _
  rw [after0_2]
  unfold out0_2
  rw [View.canon_unit_zero hz4]
  simp only [View.ld_unit_zero (S := S1x256x32x128) hz4, View.ld_unit_zero (S := S1x1x32x128) hz4]
  unfold iblk
  exact flushed_core (V m c main_v5) (V m c main_v6) t

/-- An index of the result array is in point `t`'s block iff each coordinate is in the block's range on its axis. -/
theorem mem_blk (t : Fin cfg0.N) (i : S4x4096x32x128.Idx) :
    i ∈ ((cfg0.win 2).blk t).view.set ↔ ∀ a : Fin 4, win0_2.index t a * S1x256x32x128.size a ≤ (i a).val
      ∧ (i a).val < win0_2.index t a * S1x256x32x128.size a + S1x256x32x128.size a := by
  show i ∈ ((View.whole main_v7).slice (win0_2.rect t)).set ↔ _
  rw [View.set_slice_whole, Rect.mem_set_unit]
  exact Iff.rfl

/-- The 64 blocks cover the result array: row `s` of batch `b` is in the block of point (b, s / 256). -/
theorem cover (i : S4x4096x32x128.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 32 := (i 2).isLt
  have hi3 : (i 3).val < 128 := (i 3).isLt
  obtain ⟨t, ht⟩ := idx_onto ⟨(i 0).val, hi0⟩ ⟨(i 1).val / 256, by omega⟩
  have q0 : win0_2.index t (0 : Fin 4) = (i 0).val := congrFun ht 0
  have q1 : win0_2.index t (1 : Fin 4) = (i 1).val / 256 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 256 ≤ (i 1).val ∧ (i 1).val < win0_2.index t (1 : Fin 4) * 256 + 256; omega
  | ⟨2, _⟩ => show win0_2.index t (2 : Fin 4) * 32 ≤ (i 2).val ∧ (i 2).val < win0_2.index t (2 : Fin 4) * 32 + 32; omega
  | ⟨3, _⟩ => show win0_2.index t (3 : Fin 4) * 128 ≤ (i 3).val ∧ (i 3).val < win0_2.index t (3 : Fin 4) * 128 + 128; omega

/-- THE RESULT ARRAY after the last point is `regionFn` of the reordered input and the reordered scales. -/
theorem region_final : outArr m c = regionFn (V m c main_v5) (V m c main_v6) :=
  (dats m 0 c).arrAt_eq_of_cover 2 (regionFn (V m c main_v5) (V m c main_v6)) (fun t _ => flushed_eq m c t) (cover)

end Cert.KernelIdeal.Val

end
-- ==== Proof.Take.lean ====
/-
  A take with fill, and a plain indexing gather, along the channel axis, read at an index.

  An index table whose words are all below 4096 needs neither the negative-index wrap (`wrap_small`) nor the
  out-of-bounds fill: the in-bounds mask is all ones (`inb_mask`), so the select keeps the gathered value
  (`select_ok3`, `select_ok1`). The gather itself reads the operand, along its last axis, at the start-index word
  of the result's last coordinate, read signed and clamped into the axis (`gather3_apply`, `gather1_apply`).
-/
import proofs.«427747_j82978768159600_2_alg».proof.Proof.Spec
import Idealize.ShloMosaic.Lib.StableHlo.Predicate

noncomputable section

namespace Cert.Spec

open Idealize.ShloMosaic Idealize.ShloMosaic.ValueIdx Idealize.ShloMosaic.StableHlo.Predicate

abbrev T0 : Shape := ⟨0, ![]⟩
abbrev T1 : Shape := ⟨1, ![1]⟩
abbrev T1x1 : Shape := ⟨2, ![1, 1]⟩
abbrev T4096x1 : Shape := ⟨2, ![4096, 1]⟩
abbrev T4x4096x4096 : Shape := ⟨3, ![4, 4096, 4096]⟩

/-- The two spellings of a rank-1 index. -/
theorem ofFin_eq_ix1 (j : Fin 4096) : (Shape.Idx.ofFin j : T4096.Idx) = ix1 j := by
  funext a
  have ha : a = 0 := Subsingleton.elim _ _
  subst ha
  exact Fin.ext rfl

/-- The negative-index wrap (`where(i < 0, i + 4096, i)`) leaves a table of words below 4096 as it is. -/
theorem wrap_small (hb : T0.BroadcastsInDim T4096 (![] : Fin 0 → Fin 1)) (t : IVec T4096 32)
    (ht : ∀ j, (t j).toNat < 4096) :
    select (cmpi .slt t (broadcastInDim T4096 ![] hb (constantI T0 32 0#32)))
      (addi t (broadcastInDim T4096 ![] hb (constantI T0 32 4096#32))) t = t := by
  funext j
  have hlt : (t j).toNat < 4096 := ht j
  -- a word below 4096 is not negative: the comparison with 0 is the bit 0
  have hc : IntOp.cmpi .slt (t j) 0#32 = 0#1 := by
    apply eq_zero_of_ne_one
    intro h
    have h' := (slt_iff_toNat (by omega) (by decide)).1 h
    have h0 : (0#32 : BitVec 32).toNat = 0 := rfl
    omega
  show Scalar.select (IntOp.cmpi .slt (t j) 0#32) (IntOp.addi (t j) 4096#32) (t j) = t j
  rw [hc, select_zero]

/-- The table kept as a column reads, at row `j`, the table at `j`. -/
theorem col_apply (hc : T4096.BroadcastsInDim T4096x1 (![0] : Fin 1 → Fin 2)) (t : IVec T4096 32) (j : Fin 4096) :
    broadcastInDim T4096x1 ![0] hc t (ixP j) = t (Shape.Idx.ofFin j) :=
  bcast_col1 hc t j

/-- Every index of the column is `ixP` of its row. -/
theorem eq_ixP (i : T4096x1.Idx) : i = ixP (i 0) := by
  funext b
  match b with
  | ⟨0, _⟩ => rfl
  | ⟨1, _⟩ => exact Subsingleton.elim (α := Fin 1) _ _

/-- A left fold of `and` that starts at 1 and meets only 1s ends at 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- The take's in-bounds mask (`0 ≤ i ∧ i ≤ 4095`, all-reduced over the column's unit axis) is all ones on a
    column of words below 4096. -/
theorem inb_mask (h0 : T0.BroadcastsInDim T4096x1 (![] : Fin 0 → Fin 2)) (h1 : T1.BroadcastsInDim T1x1 (![1] : Fin 1 → Fin 2))
    (h2 : T1x1.BroadcastsInDim T4096x1 (![0, 1] : Fin 2 → Fin 2)) (hr : T4096x1.ReducesTo [1] T4096) (hu : 0 < T0.numel)
    (col : IVec T4096x1 32) (hcol : ∀ i, (col i).toNat < 4096) :
    Host.reduce IntOp.andi
        (andi (cmpi .sge col (broadcastInDim T4096x1 ![] h0 (constantI T0 32 0#32)))
          (cmpi .sle col (broadcastInDim T4096x1 ![0, 1] h2 (broadcastInDim T1x1 ![1] h1 (constantI T1 32 4095#32)))))
        (constantI T0 1 1#1) hr hu
      = fun _ => 1#1 := by
  funext j
  -- each word of the column lies in [0, 4095]: both comparisons are the bit 1
  have hel : ∀ i : T4096x1.Idx,
      IntOp.andi (IntOp.cmpi .sge (col i) 0#32) (IntOp.cmpi .sle (col i) 4095#32) = 1#1 := by
    intro i
    have h := hcol i
    have e0 : (0#32 : BitVec 32).toNat = 0 := rfl
    have e1 : (4095#32 : BitVec 32).toNat = 4095 := rfl
    rw [(sge_iff_toNat (by omega) (by decide)).2 (by omega), (sle_iff_toNat (by omega) (by decide)).2 (by omega)]
    decide
  show Host.reduce IntOp.andi _ _ hr hu j = 1#1
  rw [Host.reduce_eq_foldl]
  exact foldl_andi_ones _ hel _

/-- A select under an all-ones mask laid along the last axis keeps its first operand … -/
theorem select_ok3 {α : Type} (hb : T4096.BroadcastsInDim T4x4096x4096 (![2] : Fin 1 → Fin 3)) (a b : T4x4096x4096.Idx → α) :
    select (broadcastInDim T4x4096x4096 ![2] hb ((fun _ => 1#1) : IVec T4096 1)) a b = a := by
  funext i
  show Scalar.select 1#1 (a i) (b i) = a i
  exact select_one _ _

/-- … and so does one under the mask itself. -/
theorem select_ok1 {α : Type} (a b : T4096.Idx → α) : select (fun _ : T4096.Idx => (1#1 : BitVec 1)) a b = a := by
  funext i
  exact select_one _ _

/-- The offset coordinate of an operand axis that is neither collapsed nor batching: the result's coordinate on the
    offset axis standing at that axis's place among the kept ones. -/
private theorem offCoord_of {s si t : Shape} (d : GatherDims s si t) (j : t.Idx) (a : Fin s.rank) (k : Nat) (o : Fin t.rank)
    (hmem : a ∈ d.sKept) (hk : d.sKept.idxOf a = k) (ho : d.offsetDims[k]? = some o) :
    d.offCoord j a = (j o).val := by
  unfold GatherDims.offCoord
  rw [dif_pos hmem]
  subst hk
  obtain ⟨_, e⟩ := List.getElem?_eq_some_iff.1 ho
  rw [e]

/-- The coordinate a result index gives a start-indices axis that is not the index vector's: the result's coordinate on
    the batch axis standing at that axis's place. -/
private theorem siCoord_of {s si t : Shape} (d : GatherDims s si t) (j : t.Idx) (b : Fin si.rank) (hb : b ∈ d.siKept) (k : Nat)
    (o : Fin t.rank) (hk : d.siKept.idxOf b = k) (ho : d.batchDims[k]? = some o) :
    (d.siCoord j b hb).val = (j o).val := by
  unfold GatherDims.siCoord
  simp only [Fin.val_cast]
  subst hk
  obtain ⟨_, e⟩ := List.getElem?_eq_some_iff.1 ho
  rw [e]

/-- The gather along the last axis of a [4, 4096, 4096] operand by a column of start indices: at (b, s, j) the operand
    at (b, s, ·) read at the word of row `j`, signed and clamped into the axis. -/
theorem gather3_apply {α : Type} (d : GatherDims T4x4096x4096 T4096x1 T4x4096x4096) (hoff : d.offsetDims = [0, 1])
    (hcoll : d.collapsedSliceDims = [2]) (hob : d.operandBatchingDims = []) (hsb : d.startIndicesBatchingDims = [])
    (hsim : d.startIndexMap = [2]) (hivd : d.indexVectorDim = 1) (hss : d.sliceSizes = ![4, 4096, 1])
    (x : T4x4096x4096.Idx → α) (col : IVec T4096x1 32) (b : Fin 4) (s : Fin 4096) (j : Fin 4096) :
    Host.gather d x col (ix3 b s j) = x (ix3 b s (clampIdx (col (ixP j)))) := by
  have hnb : ∀ a : Fin 3, a ∉ d.operandBatchingDims := fun a => by rw [hob]; exact List.not_mem_nil
  -- the operand's kept axes are 0 and 1, read by the result's offset axes 0 and 1; the result's one batch axis is 2,
  -- reading the rows of the column
  have hsk : d.sKept = [0, 1] := by
    show Shape.kept _ (d.collapsedSliceDims ++ d.operandBatchingDims) = _
    rw [hcoll, hob]; decide
  have hbd : d.batchDims = [2] := by
    show Shape.kept _ d.offsetDims = _
    rw [hoff]; decide
  have hsik : d.siKept = [0] := by
    show (List.finRange 2).filter (·.val ≠ d.indexVectorDim) = _
    rw [hivd]; decide
  -- axes 0 and 1: a full slice from 0, the result's own coordinate
  have h0 : (d.operandIdx (ix3 b s j) col 0).val = b.val := by
    have hns : (0 : Fin 3) ∉ d.startIndexMap := by rw [hsim]; decide
    simp only [GatherDims.operandIdx, GatherDims.batchCoord_eq_zero _ _ _ (hnb _), Nat.add_zero, GatherDims.start,
      dif_neg hns, Nat.zero_add]
    exact offCoord_of d _ 0 0 0 (by rw [hsk]; decide) (by rw [hsk]; decide) (by rw [hoff]; rfl)
  have h1 : (d.operandIdx (ix3 b s j) col 1).val = s.val := by
    have hns : (1 : Fin 3) ∉ d.startIndexMap := by rw [hsim]; decide
    simp only [GatherDims.operandIdx, GatherDims.batchCoord_eq_zero _ _ _ (hnb _), Nat.add_zero, GatherDims.start,
      dif_neg hns, Nat.zero_add]
    exact offCoord_of d _ 1 1 1 (by rw [hsk]; decide) (by rw [hsk]; decide) (by rw [hoff]; rfl)
  -- axis 2: collapsed, its start the word of row j clamped into [0, 4096 - 1]
  have h2 : (d.operandIdx (ix3 b s j) col 2).val = (clampIdx (col (ixP j))).val := by
    have hk : (2 : Fin 3) ∉ d.sKept := by rw [hsk]; decide
    have hm : (2 : Fin 3) ∈ d.startIndexMap := by rw [hsim]; exact List.mem_singleton.mpr rfl
    have hsl : d.sliceSizes 2 = 1 := by rw [hss]; rfl
    simp only [GatherDims.operandIdx, GatherDims.batchCoord_eq_zero _ _ _ (hnb _), GatherDims.offCoord_eq_zero _ _ _ hk,
      Nat.add_zero, GatherDims.start, dif_pos hm]
    show min (col _).toInt.toNat (4096 - d.sliceSizes 2) = min (col (ixP j)).toInt.toNat 4095
    rw [hsl]
    congr 3
    congr 1
    funext c
    match c with
    | ⟨0, _⟩ =>
      unfold GatherDims.siIdx
      rw [dif_neg (by rw [hivd]; exact Nat.zero_ne_one)]
      apply Fin.ext
      exact siCoord_of d _ _ _ 0 2 (by rw [hsik]; rfl) (by rw [hbd]; rfl)
    | ⟨1, _⟩ =>
      unfold GatherDims.siIdx
      rw [dif_pos (by rw [hivd])]
      apply Fin.ext
      show List.idxOf (2 : Fin 3) d.startIndexMap = 0
      rw [hsim]; decide
  unfold Host.gather
  congr 1
  funext a
  match a with
  | ⟨0, _⟩ => exact Fin.ext h0
  | ⟨1, _⟩ => exact Fin.ext h1
  | ⟨2, _⟩ => exact Fin.ext h2

/-- The same along the one axis of a [4096] operand. -/
theorem gather1_apply {α : Type} (d : GatherDims T4096 T4096x1 T4096) (hcoll : d.collapsedSliceDims = [0])
    (hob : d.operandBatchingDims = []) (hsim : d.startIndexMap = [0]) (hivd : d.indexVectorDim = 1)
    (x : T4096.Idx → α) (col : IVec T4096x1 32) (j : Fin 4096) :
    Host.gather d x col (Shape.Idx.ofFin j) = x (Shape.Idx.ofFin (clampIdx (col (ixP j)))) :=
  gather_take d hcoll hob hsim hivd x col j (by decide)

end Cert.Spec

end
-- ==== Proof.KernelPrefix.lean ====
/-
  The arrays the kernel's one call reads, as the host operations before it leave them, read at an index.

  Before the call the program lays the input [4, 32, 4096, 128] out as [batch, position, channel] (a transpose of the
  head and position axes, then heads and lanes merged into one channel axis of 4096), takes it along the channel axis
  by the index table, and cuts the channel axis back into 32 groups of 128 lanes; the smoothing scales are taken by the
  same table and laid out [1, 1, 32, 128]. The take wraps negative words, the gather clamps its start
  index, and positions whose word is out of range are filled. For a table that is a permutation of 0 … 4095 every word
  is in range, so neither the wrap nor the fill does anything, and the clamped word at position `j` is `src ridx j`:
  at (batch `b`, position `s`, group `g`, lane `l`) the first array holds the input's channel `src ridx (g·128 + l)`
  of that batch and position, and the second holds the scale of that channel.
-/
import proofs.«427747_j82978768159600_2_alg».proof.Proof.Gen.KernelIdeal.Frame
import proofs.«427747_j82978768159600_2_alg».proof.Proof.Spec
import proofs.«427747_j82978768159600_2_alg».proof.Proof.KernelNames
import proofs.«427747_j82978768159600_2_alg».proof.Proof.Perm
import proofs.«427747_j82978768159600_2_alg».proof.Proof.Take
import Idealize.ShloMosaic.Lib.StableHlo.Run
import Idealize.ShloMosaic.Lib.Pipeline.Value
import Idealize.ShloMosaic.Lib.ValueIdx

noncomputable section

namespace Cert.KernelIdeal.Val

open Cert.KernelIdeal Cert.KernelIdeal.Gen Cert.Spec Idealize.ShloMosaic Idealize.ShloMosaic.ValueIdx
open Idealize.ShloMosaic.TcCoe Idealize.SL.Sem Idealize.ShloMosaic.StableHlo.Predicate

variable (m : (ℓ : Loc nD τ sig) → Buf (Elt Ideal) ℓ) (c : Dev nD)

/-! ## The take's index column and in-bounds mask -/

/-- The table after the take's negative-index wrap. -/
abbrev wrapped (t : IVec S4096 32) : IVec S4096 32 :=
  select (cmpi .slt t (broadcastInDim S4096 ![] bcast_S_S4096 (constantI S_ 32 0#32)))
    (addi t (broadcastInDim S4096 ![] bcast_S_S4096 (constantI S_ 32 4096#32))) t

/-- The wrapped table as a column of start indices. -/
abbrev column (t : IVec S4096 32) : IVec S4096x1 32 :=
  broadcastInDim S4096x1 ![0] bcast_S4096_S4096x1_0 (wrapped t)

/-- The take's in-bounds mask of a column: `0 ≤ i ∧ i ≤ 4095`, all-reduced over the unit axis. -/
abbrev inbounds (col : IVec S4096x1 32) : IVec S4096 1 :=
  Host.reduce IntOp.andi
    (andi (cmpi .sge col (broadcastInDim S4096x1 ![] bcast_S_S4096x1 (constantI S_ 32 0#32)))
      (cmpi .sle col (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_

/-- The input laid out [batch, position, channel]. -/
abbrev flatInput (x : S4x32x4096x128.Idx → EReal) : S4x4096x4096.Idx → EReal :=
  shapeCast S4x4096x4096 (transpose S4x4096x32x128 [0, 2, 1, 3] x transposes_S4x32x4096x128_S4x4096x32x128_0_2_1_3)
    shapeCasts_S4x4096x32x128_S4x4096x4096

/-- The input taken along the channel axis, with the fill. -/
abbrev takenInput (x : S4x32x4096x128.Idx → EReal) (t : IVec S4096 32) : S4x4096x4096.Idx → EReal :=
  select (broadcastInDim S4x4096x4096 ![2] bcast_S4096_S4x4096x4096_2 (inbounds (column t)))
    (Host.gather gather_S4x4096x4096_S4096x1_S4x4096x4096_01_2_n_n_2_1_440961 (flatInput x) (column t))
    (broadcastInDim S4x4096x4096 ![] bcast_S_S4x4096x4096 (constant (F := Ideal) S_ .f32 0x7FC00000#32))

/-- The scales taken, with the fill. -/
abbrev takenScale (x : S4096.Idx → EReal) (t : IVec S4096 32) : S4096.Idx → EReal :=
  select (inbounds (column t))
    (Host.gather gather_S4096_S4096x1_S4096_n_0_n_n_0_1_1 x (column t))
    (broadcastInDim S4096 ![] bcast_S_S4096 (constant (F := Ideal) S_ .f32 0x7FC00000#32))

/-! ## The two arrays as the operations' terms -/

set_option maxHeartbeats 2000000 in
/-- The call's first operand: the taken input with its channel axis cut into groups and lanes. -/
theorem V5_term : (V m c main_v5 : S4x4096x32x128.Idx → EReal)
    = shapeCast S4x4096x32x128 (takenInput (tensorOf m c) (ridxOf m c)) shapeCasts_S4x4096x4096_S4x4096x32x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  simp only [StableHlo.TRef.ofBuf, StableHlo.TRef.toBuf, cast_eq]
  rfl

set_option maxHeartbeats 2000000 in
/-- The call's second operand: the taken scales laid out [1, 1, 32, 128]. -/
theorem V6_term : (V m c main_v6 : S1x1x32x128.Idx → EReal)
    = shapeCast S1x1x32x128 (takenScale (smoothOf m c) (ridxOf m c)) shapeCasts_S4096_S1x1x32x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  simp only [StableHlo.TRef.ofBuf, StableHlo.TRef.toBuf, cast_eq]
  rfl

/-! ## The take on a table of words below 4096 -/

/-- Such a table is its own wrap. -/
theorem wrapped_eq (t : IVec S4096 32) (ht : ∀ j, (t j).toNat < 4096) : wrapped t = t :=
  wrap_small bcast_S_S4096 t ht

/-- Its column reads, at row `j`, the table at `j`. -/
theorem column_apply (t : IVec S4096 32) (ht : ∀ j, (t j).toNat < 4096) (j : Fin 4096) :
    column t (ixP j) = t (Shape.Idx.ofFin j) := by
  show broadcastInDim S4096x1 ![0] bcast_S4096_S4096x1_0 (wrapped t) (ixP j) = _
  rw [wrapped_eq t ht]
  exact col_apply bcast_S4096_S4096x1_0 t j

/-- The column's words are below 4096 too. -/
theorem column_small (t : IVec S4096 32) (ht : ∀ j, (t j).toNat < 4096) (i : S4096x1.Idx) :
    (column t i).toNat < 4096 := by
  have h : column t i = t (Shape.Idx.ofFin (i 0)) :=
    (congrArg (column t) (eq_ixP i)).trans (column_apply t ht (i 0))
  rw [h]
  exact ht _

/-- So every position is in bounds. -/
theorem inbounds_eq (t : IVec S4096 32) (ht : ∀ j, (t j).toNat < 4096) : inbounds (column t) = fun _ => 1#1 :=
  inb_mask bcast_S_S4096x1 bcast_S1_S1x1_1 bcast_S1x1_S4096x1_0_1 reducesTo_S4096x1_S4096_d1 h_S_ (column t)
    (column_small t ht)

/-- The input laid out [batch, position, channel] reads channel `h` at head `h / 128`, lane `h % 128`. -/
theorem flatInput_apply (x : S4x32x4096x128.Idx → EReal) (b : Fin 4) (s : Fin 4096) (h : Fin 4096) :
    flatInput x (ix3 b s h) = x (ix4 b (hi h) s (lo h)) := by
  refine (shapeCast_apply _ shapeCasts_S4x4096x32x128_S4x4096x4096 (ix3 b s h) (ix4 b s (hi h) (lo h)) ?_).trans ?_
  · rw [Shape.rowMajor_val_four, Shape.rowMajor_val_three]
    show ((b.val * 4096 + s.val) * 32 + h.val / 128) * 128 + h.val % 128 = (b.val * 4096 + s.val) * 4096 + h.val
    omega
  · exact transpose_apply [0, 2, 1, 3] x transposes_S4x32x4096x128_S4x4096x32x128_0_2_1_3 (ix4 b s (hi h) (lo h))
      (ix4 b (hi h) s (lo h)) (fun a => by fin_cases a <;> rfl)

/-- The taken input reads, at channel position `j`, the channel the table's word at `j` clamps to. -/
theorem takenInput_apply (x : S4x32x4096x128.Idx → EReal) (t : IVec S4096 32) (ht : ∀ j, (t j).toNat < 4096)
    (b : Fin 4) (s : Fin 4096) (j : Fin 4096) :
    takenInput x t (ix3 b s j) = x (ix4 b (hi (src t j)) s (lo (src t j))) := by
  show select (broadcastInDim S4x4096x4096 ![2] bcast_S4096_S4x4096x4096_2 (inbounds (column t))) _ _ (ix3 b s j) = _
  rw [inbounds_eq t ht, select_ok3,
    gather3_apply gather_S4x4096x4096_S4096x1_S4x4096x4096_01_2_n_n_2_1_440961 rfl rfl rfl rfl rfl rfl rfl,
    column_apply t ht, flatInput_apply]
  rfl

/-- The taken scales read, at position `j`, the scale of that channel. -/
theorem takenScale_apply (x : S4096.Idx → EReal) (t : IVec S4096 32) (ht : ∀ j, (t j).toNat < 4096) (j : Fin 4096) :
    takenScale x t (ix1 j) = x (ix1 (src t j)) := by
  show select (inbounds (column t)) _ _ (ix1 j) = _
  rw [inbounds_eq t ht, select_ok1, ← ofFin_eq_ix1 j,
    gather1_apply gather_S4096_S4096x1_S4096_n_0_n_n_0_1_1 rfl rfl rfl rfl, column_apply t ht, ofFin_eq_ix1]
  rfl

/-! ## The two operands at an index -/

/-- The call's first operand at (batch, position, group, lane): the input's channel `src ridx (group · 128 + lane)`. -/
theorem V5_apply (hperm : IsPerm (ridxOf m c)) (b : Fin 4) (s : Fin 4096) (g : Fin 32) (l : Fin 128) :
    (V m c main_v5 : S4x4096x32x128.Idx → EReal) (ix4 b s g l) = xflat (tensorOf m c) b s (src (ridxOf m c) (join g l)) := by
  rw [V5_term]
  refine (shapeCast_apply _ shapeCasts_S4x4096x4096_S4x4096x32x128 (ix4 b s g l) (ix3 b s (join g l)) ?_).trans ?_
  · rw [Shape.rowMajor_val_three, Shape.rowMajor_val_four]
    show (b.val * 4096 + s.val) * 4096 + (g.val * 128 + l.val) = ((b.val * 4096 + s.val) * 32 + g.val) * 128 + l.val
    omega
  · exact takenInput_apply (tensorOf m c) (ridxOf m c) (word_small hperm) b s (join g l)

/-- The call's second operand at (group, lane): the scale of that channel. -/
theorem V6_apply (hperm : IsPerm (ridxOf m c)) (g : Fin 32) (l : Fin 128) :
    (V m c main_v6 : S1x1x32x128.Idx → EReal) (ix4 0 0 g l) = (smoothOf m c) (ix1 (src (ridxOf m c) (join g l))) := by
  rw [V6_term]
  refine (shapeCast_apply _ shapeCasts_S4096_S1x1x32x128 (ix4 0 0 g l) (ix1 (join g l)) ?_).trans ?_
  · rw [Shape.rowMajor_val_one, Shape.rowMajor_val_four]
    show g.val * 128 + l.val = ((0 * 1 + 0) * 32 + g.val) * 128 + l.val
    omega
  · exact takenScale_apply (smoothOf m c) (ridxOf m c) (word_small hperm) (join g l)

end Cert.KernelIdeal.Val

end
-- ==== Proof.KernelTail.lean ====
/-
  The kernel program's host operations after its one call, read at an index.

  The call leaves an array laid out [batch, position, group, lane]. The tail reshapes it to [batch, position, channel]
  (channel = group * 128 + lane), takes it along the channel axis by the sorting permutation's table (the argsort of
  the index table: entry `k` holds `srt ridx k`), reshapes back and swaps positions with groups. An argsort's words
  are all below 4096, so the take neither wraps a negative word nor fills an out-of-range one, and the result at
  (batch, head, position, lane) is the call's array at (batch, position, ·, ·) read at the group and lane of
  `srt ridx (head * 128 + lane)`.

  Each of the three stretches of operations is first read over arbitrary contents `W` of the buffers (what a stretch
  computes does not depend on how its operands came about), then the three are chained from the contents the tail
  really starts from: the contents at the call's entry with the call's arrays as the call leaves them.
-/
import proofs.«427747_j82978768159600_2_alg».proof.Proof.KernelNames
import proofs.«427747_j82978768159600_2_alg».proof.Proof.Perm
import proofs.«427747_j82978768159600_2_alg».proof.Proof.Take
import Idealize.ShloMosaic.Lib.Pipeline.Value

noncomputable section

namespace Cert.KernelIdeal.Val

open Cert.KernelIdeal Cert.KernelIdeal.Gen Cert.Spec Idealize.ShloMosaic Idealize.ShloMosaic.ValueIdx Idealize.ShloMosaic.TcCoe Idealize.SL.Sem
open Idealize.ShloMosaic.StableHlo.Predicate (ixP)

variable (m : (ℓ : Loc nD τ sig) → Buf (Elt Ideal) ℓ) (c : Dev nD)

/-! ## The three stretches of host operations after the call, each over any contents -/

/-- The last stretch (a reshape to [4, 4096, 32, 128], then the transpose swapping positions and heads) reads, at
    (batch, head, position, lane), its operand at (batch, position, head * 128 + lane). -/
theorem tail3_apply (W : Valuation τ sig (Elt Ideal)) (b : Fin 4) (n : Fin 32) (s : Fin 4096) (d : Fin 128) :
    (StableHlo.after (hostOps1_2 (F := Ideal)) W (Proc.devRef .tc main_v11) : S4x32x4096x128.Idx → EReal) (ix4 b n s d)
      = (W (Proc.devRef .tc main_v9) : S4x4096x4096.Idx → EReal) (ix3 b s (join n d)) := by
  have e : (StableHlo.after (hostOps1_2 (F := Ideal)) W (Proc.devRef .tc main_v11) : S4x32x4096x128.Idx → EReal)
      = transpose S4x32x4096x128 [0, 2, 1, 3]
          (shapeCast S4x4096x32x128 (W (Proc.devRef .tc main_v9) : S4x4096x4096.Idx → EReal) shapeCasts_S4x4096x4096_S4x4096x32x128)
          transposes_S4x4096x32x128_S4x32x4096x128_0_2_1_3 := by
    after_results; rfl
  rw [e]
  refine (transpose_apply _ _ _ (ix4 b n s d) (ix4 b s n d) fun a => ?_).trans ?_
  · match a with
    | ⟨0, _⟩ => rfl
    | ⟨1, _⟩ => rfl
    | ⟨2, _⟩ => rfl
    | ⟨3, _⟩ => rfl
  · refine shapeCast_apply _ _ (ix4 b s n d) (ix3 b s (join n d)) ?_
    rw [Shape.rowMajor_val_three, Shape.rowMajor_val_four]
    show (b.val * 4096 + s.val) * 4096 + (n.val * 128 + d.val) = ((b.val * 4096 + s.val) * 32 + n.val) * 128 + d.val
    omega

/-- The first stretch (the call's result reshaped to [4, 4096, 4096]) reads, at (batch, position, channel), the
    call's result at (batch, position, channel / 128, channel % 128) … -/
theorem tail1_apply (W : Valuation τ sig (Elt Ideal)) (b : Fin 4) (s : Fin 4096) (p : Fin 4096) :
    (StableHlo.after (hostOps1 (F := Ideal)) W (Proc.devRef .tc main_v8) : S4x4096x4096.Idx → EReal) (ix3 b s p)
      = (W (Proc.devRef .tc main_v7) : S4x4096x32x128.Idx → EReal) (ix4 b s (hi p) (lo p)) := by
  have e : (StableHlo.after (hostOps1 (F := Ideal)) W (Proc.devRef .tc main_v8) : S4x4096x4096.Idx → EReal)
      = shapeCast S4x4096x4096 (W (Proc.devRef .tc main_v7) : S4x4096x32x128.Idx → EReal) shapeCasts_S4x4096x32x128_S4x4096x4096 := by
    after_results; rfl
  rw [e]
  refine shapeCast_apply _ _ (ix3 b s p) (ix4 b s (hi p) (lo p)) ?_
  rw [Shape.rowMajor_val_three, Shape.rowMajor_val_four]
  show ((b.val * 4096 + s.val) * 32 + p.val / 128) * 128 + p.val % 128 = (b.val * 4096 + s.val) * 4096 + p.val
  omega

/-- … and leaves the sorting permutation's table as it found it. -/
theorem tail1_keeps (W : Valuation τ sig (Elt Ideal)) :
    StableHlo.after (hostOps1 (F := Ideal)) W (Proc.devRef .tc main_v4) = W (Proc.devRef .tc main_v4) := by
  after_results

/-! ## The take along the channel axis -/

/-- The index table as the take uses it: negative words wrapped by 4096, kept as a column. -/
def takeCol (t : IVec S4096 32) : IVec S4096x1 32 :=
  broadcastInDim S4096x1 ![0] bcast_S4096_S4096x1_0
    (select (cmpi .slt t (broadcastInDim S4096 ![] bcast_S_S4096 (constantI S_ 32 0#32)))
      (addi t (broadcastInDim S4096 ![] bcast_S_S4096 (constantI S_ 32 4096#32))) t)

/-- The take of `x` along its channel axis by the table `t`, out-of-range entries filled: the gather by the column,
    selected against the fill by the in-bounds mask laid along the channel axis. -/
def takeFn (t : IVec S4096 32) (x : S4x4096x4096.Idx → EReal) : S4x4096x4096.Idx → EReal :=
  select
    (broadcastInDim S4x4096x4096 ![2] bcast_S4096_S4x4096x4096_2
      (Host.reduce IntOp.andi
        (andi (cmpi .sge (takeCol t) (broadcastInDim S4096x1 ![] bcast_S_S4096x1 (constantI S_ 32 0#32)))
          (cmpi .sle (takeCol t)
            (broadcastInDim S4096x1 ![0, 1] bcast_S1x1_S4096x1_0_1 (broadcastInDim S1x1 ![1] bcast_S1_S1x1_1 (constantI S1 32 4095#32)))))
        (constantI S_ 1 1#1) reducesTo_S4096x1_S4096_d1 h_S_))
    (Host.gather gather_S4x4096x4096_S4096x1_S4x4096x4096_01_2_n_n_2_1_440961 x (takeCol t))
    (broadcastInDim S4x4096x4096 ![] bcast_S_S4x4096x4096 (constant (F := Ideal) S_ .f32 0x7FC00000#32))

/-- With every word of the table below 4096 nothing is wrapped and nothing is filled: the take reads, at
    (batch, position, j), its operand at (batch, position, the word at j). -/
theorem takeFn_apply (t : IVec S4096 32) (ht : ∀ j, (t j).toNat < 4096) (x : S4x4096x4096.Idx → EReal)
    (b : Fin 4) (s : Fin 4096) (j : Fin 4096) :
    takeFn t x (ix3 b s j) = x (ix3 b s (clampIdx (t (Shape.Idx.ofFin j)))) := by
  have hcolEq : takeCol t = broadcastInDim S4096x1 ![0] bcast_S4096_S4096x1_0 t := by
    unfold takeCol; rw [wrap_small bcast_S_S4096 t ht]
  have hcol : ∀ i, ((takeCol t) i).toNat < 4096 := by
    intro i
    have hi : i = ixP (show Fin 4096 from i 0) := eq_ixP i
    rw [hcolEq, hi, col_apply]; exact ht _
  unfold takeFn
  rw [inb_mask bcast_S_S4096x1 bcast_S1_S1x1_1 bcast_S1x1_S4096x1_0_1 reducesTo_S4096x1_S4096_d1 h_S_ (takeCol t) hcol,
    select_ok3,
    gather3_apply gather_S4x4096x4096_S4096x1_S4x4096x4096_01_2_n_n_2_1_440961 rfl rfl rfl rfl rfl rfl rfl,
    hcolEq, col_apply]

set_option maxHeartbeats 1000000 in
/-- The middle stretch is that take, of the reshaped result by the sorting permutation's table. -/
theorem tail2_eq (W : Valuation τ sig (Elt Ideal)) :
    (StableHlo.after (hostOps1_1 (F := Ideal)) W (Proc.devRef .tc main_v9) : S4x4096x4096.Idx → EReal)
      = takeFn (W (Proc.devRef .tc main_v4)) (W (Proc.devRef .tc main_v8)) := by
  after_results_simp
  rfl

/-! ## What the tail starts from -/

/-- The contents the tail runs from: the contents at the call's entry, with the call's arrays as the call leaves them. -/
abbrev tailFrom : Valuation τ sig (Elt Ideal) :=
  Pipeline.withArrays (cfgs 0).spec c (V0 m c) fun w => (dats m 0 c).arrAt w (cfgs 0).N

/-- The call's result there is the array the call wrote. -/
theorem tailFrom_v7 : (tailFrom m c (Proc.devRef .tc main_v7) : S4x4096x32x128.Idx → EReal) = outArr m c :=
  Pipeline.withArrays_arr spec0 launch0.win.arr_inj c _ _ 2

/-- The argsort's three operations leave, at its second result, the positions carried along the sort of the table. -/
theorem pre3_v4 (W : Valuation τ sig (Elt Ideal)) :
    (StableHlo.after (hostOps0_3 (F := Ideal)) W (Proc.devRef .tc main_v4) : IVec S4096 32)
      = (Host.sort2 S4096 0 comparator_i32_i32_d0 (W (Proc.devRef .tc main_arg2)) (iotaInDim S4096 32 0)).2 := by
  after_results; rfl
/-- The two reshapes after it do not write that result. -/
theorem pre4_keeps (W : Valuation τ sig (Elt Ideal)) :
    StableHlo.after (hostOps0_4 (F := Ideal)) W (Proc.devRef .tc main_v4) = W (Proc.devRef .tc main_v4) := by
  after_results
/-- No stretch before the argsort writes the index table. -/
theorem pre0_keeps (W : Valuation τ sig (Elt Ideal)) :
    StableHlo.after (hostOps0 (F := Ideal)) W (Proc.devRef .tc main_arg2) = W (Proc.devRef .tc main_arg2) := by
  after_results
set_option maxHeartbeats 1000000 in
theorem pre1_keeps (W : Valuation τ sig (Elt Ideal)) :
    StableHlo.after (hostOps0_1 (F := Ideal)) W (Proc.devRef .tc main_arg2) = W (Proc.devRef .tc main_arg2) := by
  after_results_simp
set_option maxHeartbeats 1000000 in
theorem pre2_keeps (W : Valuation τ sig (Elt Ideal)) :
    StableHlo.after (hostOps0_2 (F := Ideal)) W (Proc.devRef .tc main_arg2) = W (Proc.devRef .tc main_arg2) := by
  after_results_simp

/-- The sorting permutation's table, as the tail finds it: the argsort of the index table as launched. -/
theorem tailFrom_v4 : (tailFrom m c (Proc.devRef .tc main_v4) : IVec S4096 32)
    = (Host.sort2 S4096 0 comparator_i32_i32_d0 (ridxOf m c) (iotaInDim S4096 32 0)).2 := by
  unfold tailFrom
  rw [Pipeline.withArrays_of_ne _ c (V0 m c) _ main_v4 (by exact (by decide : ∀ w, Pipeline.arrRef spec0 w ≠ main_v4))]
  show StableHlo.after (List.flatten [hostOps0, hostOps0_1, hostOps0_2, hostOps0_3, hostOps0_4]) (fun b => m (c, b)) (Proc.devRef .tc main_v4) = _
  rw [List.flatten_cons, List.flatten_cons, List.flatten_cons, List.flatten_cons, List.flatten_cons, List.flatten_nil, List.append_nil,
    StableHlo.after_append, StableHlo.after_append, StableHlo.after_append, StableHlo.after_append,
    pre4_keeps, pre3_v4, pre2_keeps, pre1_keeps, pre0_keeps]

/-! ## The tail read at an index -/

/-- The program's result at (batch, head, position, lane): the call's result at the same batch and position, at the
    group and lane of the position the sort carries to channel `head * 128 + lane`. The argsort's words are below 4096
    whatever the table, so the take neither wraps nor fills. -/
theorem tail_apply (b : Fin 4) (n : Fin 32) (s : Fin 4096) (d : Fin 128) :
    resArr m c (ix4 b n s d)
      = outArr m c (ix4 b s (hi (srt (ridxOf m c) (join n d))) (lo (srt (ridxOf m c) (join n d)))) := by
  have hsplit : resArr m c
      = StableHlo.after (hostOps1_2 (F := Ideal)) (StableHlo.after hostOps1_1 (StableHlo.after hostOps1 (tailFrom m c)))
          (Proc.devRef .tc main_v11) := by
    show StableHlo.after (List.flatten [hostOps1, hostOps1_1, hostOps1_2]) (tailFrom m c) (Proc.devRef .tc main_v11) = _
    rw [List.flatten_cons, List.flatten_cons, List.flatten_cons, List.flatten_nil, List.append_nil,
      StableHlo.after_append, StableHlo.after_append]
  have hcmp : ∀ l r : BitVec 32 × BitVec 32, comparator_i32_i32_d0 l r = IntOp.cmpi .slt l.1 r.1 := fun _ _ => rfl
  have ht : ∀ j, ((StableHlo.after (hostOps1 (F := Ideal)) (tailFrom m c) (Proc.devRef .tc main_v4) : IVec S4096 32) j).toNat < 4096 := by
    intro j
    rw [tail1_keeps, tailFrom_v4]
    exact argsort_small comparator_i32_i32_d0 hcmp (ridxOf m c) j
  rw [hsplit, tail3_apply, tail2_eq, takeFn_apply _ ht, tail1_apply, tailFrom_v7, tail1_keeps, tailFrom_v4,
    clampIdx_argsort comparator_i32_i32_d0 hcmp]

end Cert.KernelIdeal.Val

end
-- ==== Proof.KernelValue.lean ====
/-
  The kernel program's result, as one function of its arguments.

  The host operations before the call lay the input out as [batch, position, channel], read the channels through the
  index table (entry `j` reads channel `src ridx j`) and cut them into 32 groups of 128 lanes; the call smooths,
  quantises, dequantises and un-smooths each group with the REORDERED scales; the host operations after it carry
  entry `srt ridx p` back to channel `p`. So at channel `p` the result is the dequantised entry over the scale of
  channel `src ridx (srt ridx p)`, which is `p` itself when the table is a permutation: the value `G`.
-/
import proofs.«427747_j82978768159600_2_alg».proof.Proof.KernelNames
import proofs.«427747_j82978768159600_2_alg».proof.Proof.Perm
import proofs.«427747_j82978768159600_2_alg».proof.Proof.KernelRegion
import proofs.«427747_j82978768159600_2_alg».proof.Proof.KernelPrefix
import proofs.«427747_j82978768159600_2_alg».proof.Proof.KernelTail

noncomputable section

namespace Cert.KernelIdeal.Val

open Cert.KernelIdeal Cert.KernelIdeal.Gen Cert.Spec Idealize.ShloMosaic Idealize.ShloMosaic.ValueIdx
  Idealize.ShloMosaic.TcCoe Idealize.SL.Sem

variable (m : (ℓ : Loc nD τ sig) → Buf (Elt Ideal) ℓ) (c : Dev nD)

/-- Under a permutation table the program returns `G` of its arguments. -/
theorem result_eq (hperm : IsPerm (ridxOf m c)) : resArr m c = G (tensorOf m c) (smoothOf m c) (ridxOf m c) := by
  funext i
  obtain ⟨b, n, s, d, rfl⟩ : ∃ (b : Fin 4) (n : Fin 32) (s : Fin 4096) (d : Fin 128), i = ix4 b n s d :=
    ⟨i 0, i 1, i 2, i 3, eq_ix4 i⟩
  -- the tail reads the call's array at the sort's source of channel n·128 + d; the call's array is `regionFn`
  rw [tail_apply, region_final]
  unfold regionFn G grp
  -- the call's two operands, entry by entry
  simp only [V5_apply m c hperm, V6_apply m c hperm]
  -- the group and lane of a position rejoin to it, and the table read at the sort's source of `p` is `p`
  rw [join_hi_lo, src_srt hperm]

end Cert.KernelIdeal.Val

end
-- ==== Proof.RefDeq.lean ====
/-
  The first half of the reference program, read at an index.

  At (batch b, position s, reordered channel j) the reference's dequantised array holds lane (j mod 128) of group
  (j div 128) of the smoothed, reordered row, quantised against that group's own clipped minimum and maximum and
  dequantised: the reorder is a gather along the channel axis by an index table whose words are all below 4096, so
  neither the negative-index wrap nor the clamp moves an index; the group's minimum and maximum are folds over its
  128 lanes; the rest is arithmetic entry by entry, over the group's two constants laid along the lanes.
-/
import proofs.«427747_j82978768159600_2_alg».proof.Proof.Gen.ReferenceIdeal.Read
import proofs.«427747_j82978768159600_2_alg».proof.Proof.Spec
import proofs.«427747_j82978768159600_2_alg».proof.Proof.Perm
import proofs.«427747_j82978768159600_2_alg».proof.Proof.Take
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.Spec Idealize.ShloMosaic Idealize.ShloMosaic.ValueIdx

/-! ## The index maps of the layout operations, at coordinates -/

/-- [4, 4096, 4096] → [4, 4096, 32, 128]: channel j is group j / 128, lane j % 128. -/
theorem idx_split (b : Fin 4) (s : Fin 4096) (j : Fin 4096) :
    idx_main_v36 (ix3 b s j) = ix4 b s (hi j) (lo j) := by
  funext a; apply Fin.ext
  match a with
  | ⟨0, _⟩ => show ((b.val * 4096 + s.val) * 4096 + j.val) / 16777216 = b.val; omega
  | ⟨1, _⟩ => show ((b.val * 4096 + s.val) * 4096 + j.val) / 4096 % 4096 = s.val; omega
  | ⟨2, _⟩ => show ((b.val * 4096 + s.val) * 4096 + j.val) / 128 % 32 = j.val / 128; omega
  | ⟨3, _⟩ => show ((b.val * 4096 + s.val) * 4096 + j.val) % 128 = j.val % 128; omega

/-- [4, 4096, 32, 128] → [4, 4096, 4096]: group g, lane l is channel g * 128 + l. -/
theorem idx_join (b : Fin 4) (s : Fin 4096) (g : Fin 32) (l : Fin 128) :
    idx_main_v12 (ix4 b s g l) = ix3 b s (join g l) := by
  funext a; apply Fin.ext
  match a with
  | ⟨0, _⟩ => show (((b.val * 4096 + s.val) * 32 + g.val) * 128 + l.val) / 16777216 = b.val; omega
  | ⟨1, _⟩ => show (((b.val * 4096 + s.val) * 32 + g.val) * 128 + l.val) / 4096 % 4096 = s.val; omega
  | ⟨2, _⟩ => show (((b.val * 4096 + s.val) * 32 + g.val) * 128 + l.val) % 4096 = g.val * 128 + l.val; omega

/-- The transposed, flattened input: channel h of position s is head h / 128, lane h % 128 of the input. -/
theorem idx_flat (b : Fin 4) (s : Fin 4096) (h : Fin 4096) :
    idx_main_v0 (idx_main_v1 (ix3 b s h)) = ix4 b (hi h) s (lo h) := by
  funext a; apply Fin.ext
  match a with
  | ⟨0, _⟩ => show ((b.val * 4096 + s.val) * 4096 + h.val) / 16777216 = b.val; omega
  | ⟨1, _⟩ => show ((b.val * 4096 + s.val) * 4096 + h.val) / 128 % 32 = h.val / 128; omega
  | ⟨2, _⟩ => show ((b.val * 4096 + s.val) * 4096 + h.val) / 4096 % 4096 = s.val; omega
  | ⟨3, _⟩ => show ((b.val * 4096 + s.val) * 4096 + h.val) % 128 = h.val % 128; omega

/-- The smoothing scale laid along the channel axis. -/
theorem idx_scale (b : Fin 4) (s : Fin 4096) (h : Fin 4096) :
    idx_main_v2 (idx_main_v3 (ix3 b s h)) = ix1 h := by
  funext a; apply Fin.ext
  match a with
  | ⟨0, _⟩ => rfl

/-- The clipped minimum laid along the lanes, where it is subtracted: lane l of (b, s, g) reads the column at (b, s, g, 0). -/
theorem idx_lanes (b : Fin 4) (s : Fin 4096) (g : Fin 32) (l : Fin 128) :
    idx_main_v26 (ix4 b s g l) = ix4 b s g (0 : Fin 1) := by
  funext a; apply Fin.ext
  match a with
  | ⟨0, _⟩ => rfl
  | ⟨1, _⟩ => rfl
  | ⟨2, _⟩ => rfl
  | ⟨3, _⟩ => rfl

/-- A unit axis appended to (b, s, g) is read back at (b, s, g): the group's minimum kept as a column. -/
theorem idx_unit (b : Fin 4) (s : Fin 4096) (g : Fin 32) (z : Fin 1) :
    idx_main_v14 (ix4 b s g z) = ix3 b s g := by
  funext a; apply Fin.ext
  match a with
  | ⟨0, _⟩ => rfl
  | ⟨1, _⟩ => rfl
  | ⟨2, _⟩ => rfl

/-! ## The reorder: a gather along the channel axis -/

/-- The smoothed input at (b, s, channel h). -/
theorem smoothed_apply (x0 : FVec Ideal S4x32x4096x128 .f32) (x1 : FVec Ideal S4096 .f32) (b : Fin 4) (s : Fin 4096)
    (h : Fin 4096) :
    val_main_v4 (F := Ideal) x0 x1 (ix3 b s h) = xflat x0 b s h * x1 (ix1 h) := by
  rw [val_main_v4_apply, val_main_v1_apply, val_main_v0_apply, val_main_v3_apply, val_main_v2_apply, idx_flat, idx_scale]
  rfl

/-- The reordered row reads, at entry j, channel `src x2 j` of the smoothed input: the table's words are below 4096,
    so the wrap of negative indices leaves the table as it is. -/
theorem reordered_apply (x0 : FVec Ideal S4x32x4096x128 .f32) (x1 : FVec Ideal S4096 .f32) (x2 : IVec S4096 32)
    (hperm : IsPerm x2) (b : Fin 4) (s : Fin 4096) (j : Fin 4096) :
    val_main_v11 (F := Ideal) x0 x1 x2 (ix3 b s j) = xflat x0 b s (src x2 j) * x1 (ix1 (src x2 j)) := by
  have hwrap : val_main_v9 (F := Ideal) x2 = x2 := wrap_small bcast_S_S4096 x2 (word_small hperm)
  unfold val_main_v11
  rw [gather3_apply _ rfl rfl rfl rfl rfl rfl rfl]
  unfold val_main_v10
  rw [col_apply, hwrap]
  exact smoothed_apply x0 x1 b s (src x2 j)

/-- Group g of the reordered row. -/
theorem group_apply (x0 : FVec Ideal S4x32x4096x128 .f32) (x1 : FVec Ideal S4096 .f32) (x2 : IVec S4096 32)
    (hperm : IsPerm x2) (b : Fin 4) (s : Fin 4096) (g : Fin 32) (l : Fin 128) :
    val_main_v12 (F := Ideal) x0 x1 x2 (ix4 b s g l) = grp x0 x1 x2 b s g l := by
  rw [val_main_v12_apply, idx_join, reordered_apply x0 x1 x2 hperm]
  rfl

/-! ## A group's minimum and maximum: folds over its 128 lanes -/

/-- Result index (b, s, g) of the lane reduction with lane k put back is (b, s, g, k). -/
theorem lift_lane (h : S4x4096x32x128.Reduces [3] S4x4096x32) (b : Fin 4) (s : Fin 4096) (g : Fin 32)
    (k : Fin (S4x4096x32x128.size 3)) :
    h.lift (ix3 b s g) k = ix4 b s g (⟨k.val, k.isLt⟩ : Fin 128) := by
  funext c; apply Fin.ext
  fin_cases c <;> rfl

/-- Dropping the lane axis of [4, 4096, 32, 128] leaves [4, 4096, 32]. -/
theorem lanes_reduce : S4x4096x32x128.Reduces [3] S4x4096x32 := by decide

/-- The lanes of group g at (b, s), as the reduction walks them. -/
theorem lanes_eq (x0 : FVec Ideal S4x32x4096x128 .f32) (x1 : FVec Ideal S4096 .f32) (x2 : IVec S4096 32)
    (hperm : IsPerm x2) (b : Fin 4) (s : Fin 4096) (g : Fin 32) :
    (val_main_v12 (F := Ideal) x0 x1 x2 ∘ lanes_reduce.lift (ix3 b s g)) = grp x0 x1 x2 b s g :=
  funext fun k => by
    show val_main_v12 (F := Ideal) x0 x1 x2 (lanes_reduce.lift (ix3 b s g) k) = _
    rw [lift_lane, group_apply x0 x1 x2 hperm]
    rfl

/-- The group's minimum, from +∞. -/
theorem groupMin_apply (x0 : FVec Ideal S4x32x4096x128 .f32) (x1 : FVec Ideal S4096 .f32) (x2 : IVec S4096 32)
    (hperm : IsPerm x2) (b : Fin 4) (s : Fin 4096) (g : Fin 32) :
    val_main_v13 (F := Ideal) x0 x1 x2 (ix3 b s g)
      = (Finset.univ : Finset (Fin 128)).fold min pInf (grp x0 x1 x2 b s g) := by
  unfold val_main_v13
  rw [Host.reduce_eq_fold_single FloatOps.minimumf _ _ reducesTo_S4x4096x32x128_S4x4096x32_d3 lanes_reduce h_S_]
  exact congrArg (fun f => Finset.fold min pInf f (Finset.univ : Finset (Fin 128))) (lanes_eq x0 x1 x2 hperm b s g)

/-- The group's maximum, from −∞. -/
theorem groupMax_apply (x0 : FVec Ideal S4x32x4096x128 .f32) (x1 : FVec Ideal S4096 .f32) (x2 : IVec S4096 32)
    (hperm : IsPerm x2) (b : Fin 4) (s : Fin 4096) (g : Fin 32) :
    val_main_v17 (F := Ideal) x0 x1 x2 (ix3 b s g)
      = (Finset.univ : Finset (Fin 128)).fold max nInf (grp x0 x1 x2 b s g) := by
  unfold val_main_v17
  rw [Host.reduce_eq_fold_single FloatOps.maximumf _ _ reducesTo_S4x4096x32x128_S4x4096x32_d3 lanes_reduce h_S_]
  exact congrArg (fun f => Finset.fold max nInf f (Finset.univ : Finset (Fin 128))) (lanes_eq x0 x1 x2 hperm b s g)

/-! ## The quantiser, entry by entry -/

/-- The same for the group's maximum. -/
theorem idx_unit_max (b : Fin 4) (s : Fin 4096) (g : Fin 32) (z : Fin 1) :
    idx_main_v18 (ix4 b s g z) = ix3 b s g := by
  funext a; apply Fin.ext
  match a with
  | ⟨0, _⟩ => rfl
  | ⟨1, _⟩ => rfl
  | ⟨2, _⟩ => rfl

/-- The quantisation step laid along the lanes, where the entries are divided by it … -/
theorem idx_lanes_scale (b : Fin 4) (s : Fin 4096) (g : Fin 32) (l : Fin 128) :
    idx_main_v28 (ix4 b s g l) = ix4 b s g (0 : Fin 1) := by
  funext a; apply Fin.ext
  match a with
  | ⟨0, _⟩ => rfl
  | ⟨1, _⟩ => rfl
  | ⟨2, _⟩ => rfl
  | ⟨3, _⟩ => rfl

/-- … and where the levels are multiplied by it. -/
theorem idx_lanes_scale' (b : Fin 4) (s : Fin 4096) (g : Fin 32) (l : Fin 128) :
    idx_main_v32 (ix4 b s g l) = ix4 b s g (0 : Fin 1) := by
  funext a; apply Fin.ext
  match a with
  | ⟨0, _⟩ => rfl
  | ⟨1, _⟩ => rfl
  | ⟨2, _⟩ => rfl
  | ⟨3, _⟩ => rfl

/-- The clipped minimum laid along the lanes, where it is added back. -/
theorem idx_lanes' (b : Fin 4) (s : Fin 4096) (g : Fin 32) (l : Fin 128) :
    idx_main_v34 (ix4 b s g l) = ix4 b s g (0 : Fin 1) := by
  funext a; apply Fin.ext
  match a with
  | ⟨0, _⟩ => rfl
  | ⟨1, _⟩ => rfl
  | ⟨2, _⟩ => rfl
  | ⟨3, _⟩ => rfl

/-- The group's clipped minimum, kept along a unit axis. -/
theorem rowMin_apply (x0 : FVec Ideal S4x32x4096x128 .f32) (x1 : FVec Ideal S4096 .f32) (x2 : IVec S4096 32)
    (hperm : IsPerm x2) (b : Fin 4) (s : Fin 4096) (g : Fin 32) (z : Fin 1) :
    val_main_v16 (F := Ideal) x0 x1 x2 (ix4 b s g z) = rowMin (grp x0 x1 x2 b s g) := by
  rw [val_main_v16_apply, val_main_v14_apply, idx_unit, groupMin_apply x0 x1 x2 hperm, val_main_v15_apply,
    val_main_cst_1_apply]
  rfl

/-- The group's clipped maximum. -/
theorem rowMax_apply (x0 : FVec Ideal S4x32x4096x128 .f32) (x1 : FVec Ideal S4096 .f32) (x2 : IVec S4096 32)
    (hperm : IsPerm x2) (b : Fin 4) (s : Fin 4096) (g : Fin 32) (z : Fin 1) :
    val_main_v20 (F := Ideal) x0 x1 x2 (ix4 b s g z) = rowMax (grp x0 x1 x2 b s g) := by
  rw [val_main_v20_apply, val_main_v18_apply, idx_unit_max, groupMax_apply x0 x1 x2 hperm, val_main_v19_apply,
    val_main_cst_3_apply]
  rfl

/-- The group's quantisation step. -/
theorem rowScale_apply (x0 : FVec Ideal S4x32x4096x128 .f32) (x1 : FVec Ideal S4096 .f32) (x2 : IVec S4096 32)
    (hperm : IsPerm x2) (b : Fin 4) (s : Fin 4096) (g : Fin 32) (z : Fin 1) :
    val_main_v25 (F := Ideal) x0 x1 x2 (ix4 b s g z) = rowScale (grp x0 x1 x2 b s g) := by
  rw [val_main_v25_apply, val_main_v23_apply, val_main_v21_apply, rowMax_apply x0 x1 x2 hperm,
    rowMin_apply x0 x1 x2 hperm, val_main_v22_apply, val_main_cst_4_apply, val_main_v24_apply, val_main_cst_5_apply]
  rfl

/-- The clip's upper bound, the integer 3 converted to f32, is the f32 word of 3. -/
theorem three_eq : FloatOps.sitofp (F := Ideal) .f32 (3#32 : BitVec 32) = c3 := by
  show (((3#32 : BitVec 32).toInt : ℝ) : EReal) = Ideal.ofBits .f32 0x40400000#32
  -- the word 0x40400000: sign clear, exponent field 128, fraction field 2^22, that is (2^23 + 2^22) · 2^(128 - 127 - 23)
  have h3 : (3#32 : BitVec 32).toInt = 3 := by decide
  have hneg : (BitVec.extractLsb' (8 + 23) 1 (0x40400000#32 : BitVec 32) == 1#1) = false := by decide
  have hex : (BitVec.extractLsb' 23 8 (0x40400000#32 : BitVec 32)).toNat = 128 := by decide
  have hfr : (BitVec.extractLsb' 0 23 (0x40400000#32 : BitVec 32)).toNat = 4194304 := by decide
  unfold Ideal.ofBits Ideal.ieee
  simp only [hneg, hex, hfr, h3]
  norm_num

/-- The dequantised array at (b, s, j): lane j % 128 of group j / 128, quantised and dequantised. -/
theorem deq_apply (x0 : FVec Ideal S4x32x4096x128 .f32) (x1 : FVec Ideal S4096 .f32) (x2 : IVec S4096 32)
    (hperm : IsPerm x2) (b : Fin 4) (s : Fin 4096) (j : Fin 4096) :
    Read.val_main_v36 (F := Ideal) x0 x1 x2 (ix3 b s j) = deqRow (grp x0 x1 x2 b s (hi j)) (lo j) := by
  rw [val_main_v36_apply, idx_split, val_main_v35_apply, val_main_v34_apply, idx_lanes', val_main_v33_apply,
    val_main_v32_apply, idx_lanes_scale', val_main_v31_apply, val_main_v30_apply, val_main_call0_v4_apply,
    val_main_call0_v3_apply, val_main_c_7_apply, three_eq, val_main_call0_v2_apply, val_main_call0_v1_apply,
    val_main_call0_v0_apply, val_main_cst_6_apply, val_main_v29_apply, val_main_v28_apply, idx_lanes_scale,
    val_main_v27_apply, val_main_v26_apply, idx_lanes, rowMin_apply x0 x1 x2 hperm, rowScale_apply x0 x1 x2 hperm,
    group_apply x0 x1 x2 hperm]
  rfl
end Cert.ReferenceIdeal.RefValue

end
-- ==== Proof.RefOut.lean ====
/-
  The reference's last stretch, read at an index.

  Past the dequantised array (laid out [batch, position, channel]) the reference sorts the index table, carrying the
  positions 0, 1, … along, and reads the dequantised array along the channel axis at the resulting position map:
  channel `j` of the gathered array is channel `srt ridx j` of the dequantised one. The position map's words are all
  below 4096, so neither the negative-index wrap nor the clamp into the axis changes them. The gathered array is then
  divided by the smoothing scale of the channel it lands on, the channel axis is cut into 32 heads of 128 lanes
  (channel `n * 128 + d` is head `n`, lane `d`), and the head axis is moved in front of the position axis.
-/
import proofs.«427747_j82978768159600_2_alg».proof.Proof.Gen.ReferenceIdeal.Read
import proofs.«427747_j82978768159600_2_alg».proof.Proof.Spec
import proofs.«427747_j82978768159600_2_alg».proof.Proof.Perm
import proofs.«427747_j82978768159600_2_alg».proof.Proof.Take
import Idealize.ShloMosaic.Lib.ValueIdx
import Idealize.ShloMosaic.Lib.StableHlo.Predicate

noncomputable section

namespace Cert.ReferenceIdeal.RefValue

open Cert.ReferenceIdeal Cert.ReferenceIdeal.Read Cert.Spec Idealize.ShloMosaic Idealize.ShloMosaic.ValueIdx
  Idealize.ShloMosaic.StableHlo.Predicate

/-- Undoing the last transpose and reshape: result entry (batch, head, position, lane) is entry
    (batch, position, head * 128 + lane) of the [batch, position, channel] layout. -/
theorem idx_out (b : Fin 4) (n : Fin 32) (s : Fin 4096) (d : Fin 128) :
    idx_main_v48 (idx_main_v49 (ix4 b n s d)) = ix3 b s (join n d) := by
  have h0 : b.val < 4 := b.isLt
  have h1 : n.val < 32 := n.isLt
  have h2 : s.val < 4096 := s.isLt
  have h3 : d.val < 128 := d.isLt
  funext a
  apply Fin.ext
  match a with
  | ⟨0, _⟩ =>
    show (((b.val * 4096 + s.val) * 32 + n.val) * 128 + d.val) / 16777216 = b.val
    omega
  | ⟨1, _⟩ =>
    show (((b.val * 4096 + s.val) * 32 + n.val) * 128 + d.val) / 4096 % 4096 = s.val
    omega
  | ⟨2, _⟩ =>
    show (((b.val * 4096 + s.val) * 32 + n.val) * 128 + d.val) % 4096 = n.val * 128 + d.val
    omega

/-- The smoothing scale laid along the channel axis of the [batch, position, channel] layout. -/
theorem scale_apply (x1 : FVec Ideal S4096 .f32) (b : Fin 4) (s : Fin 4096) (j : Fin 4096) :
    val_main_v46 (F := Ideal) x1 (ix3 b s j) = x1 (ix1 j) := by
  rw [val_main_v46_apply, val_main_v45_apply]
  exact congrArg x1 (funext fun a => by match a with | ⟨0, _⟩ => rfl)

/-- The wrapped position map is the position map: its words are below 4096. -/
theorem wrapped_eq (x2 : IVec S4096 32) : val_main_v42 (F := Ideal) x2 = val_main_v37 (F := Ideal) x2 :=
  wrap_small Facts₀.bcast_S_S4096 (val_main_v37 (F := Ideal) x2)
    (argsort_small comparator_i32_i32_d0 (fun _ _ => rfl) x2)

/-- Row `j` of the start-index column clamps to the sort's source of position `j`. -/
theorem start_apply (x2 : IVec S4096 32) (j : Fin 4096) :
    clampIdx (val_main_v43 (F := Ideal) x2 (ixP j)) = srt x2 j := by
  unfold val_main_v43
  rw [wrapped_eq, col_apply]
  exact clampIdx_argsort comparator_i32_i32_d0 (fun _ _ => rfl) x2 j

/-- The gather reads channel `srt ridx j` of the dequantised array. -/
theorem gathered_apply (x0 : FVec Ideal S4x32x4096x128 .f32) (x1 : FVec Ideal S4096 .f32) (x2 : IVec S4096 32)
    (b : Fin 4) (s : Fin 4096) (j : Fin 4096) :
    val_main_v44 (F := Ideal) x0 x1 x2 (ix3 b s j) = val_main_v36 (F := Ideal) x0 x1 x2 (ix3 b s (srt x2 j)) := by
  unfold val_main_v44
  rw [gather3_apply _ rfl rfl rfl rfl rfl rfl rfl, start_apply]

/-- The reference's result at an index is the specification's. -/
theorem out_apply (x0 : FVec Ideal S4x32x4096x128 .f32) (x1 : FVec Ideal S4096 .f32) (x2 : IVec S4096 32)
    (h36 : ∀ (b : Fin 4) (s : Fin 4096) (j : Fin 4096),
      Read.val_main_v36 (F := Ideal) x0 x1 x2 (ix3 b s j) = deqRow (grp x0 x1 x2 b s (hi j)) (lo j))
    (i : S4x32x4096x128.Idx) :
    Read.val_main_v49 (F := Ideal) x0 x1 x2 i = Cert.Spec.G x0 x1 x2 i := by
  obtain ⟨b, n, s, d, rfl⟩ : ∃ (b : Fin 4) (n : Fin 32) (s : Fin 4096) (d : Fin 128), i = ix4 b n s d :=
    ⟨i 0, i 1, i 2, i 3, eq_ix4 i⟩
  rw [val_main_v49_apply, val_main_v48_apply, val_main_v47_apply, idx_out, scale_apply, gathered_apply, h36]
  rfl

end Cert.ReferenceIdeal.RefValue

end
-- ==== Proof.lean ====
/-
  The certificate of a group-wise 2-bit quantise / dequantise of a KV tensor with channel smoothing and a channel
  reorder, against its reference program, over the extended reals.

  Both programs lay the input out as [batch, position, 4096 channels], read the channels through an index table,
  quantise each group of 128 reordered channels against its own clipped minimum and maximum to four levels,
  dequantise, and carry the result back through the argsort of the table. They differ in one place: the reference
  multiplies by the smoothing scale before the reorder and divides by it after the inverse reorder, at the ORIGINAL
  channel; the kernel reorders the scales too and divides inside the call, before the inverse reorder, so that channel
  `p` is divided by the scale of channel `table[argsort(table)[p]]`. The two agree exactly when that channel is `p`,
  that is when the table is a permutation of 0 … 4095 — the precondition's added conjunct (the table sorts to the
  identity table): its indices are then in range of the axis they index and its argsort meets no ties.
  No law of arithmetic beyond that index identity is used; the finiteness of the float inputs is never opened.

  The three frames are the generated ones (the reference's is its generated run with the result dropped); the
  idealization rewrote nothing, so `preserves` is trivial; the algebraic claim puts the kernel's run (the generated
  frame run, its result read as the function `Cert.Spec.G` of the arguments) beside the reference's generated run
  (read operation by operation to the same `G`).
-/
import proofs.«427747_j82978768159600_2_alg».proof.Defs
import proofs.«427747_j82978768159600_2_alg».proof.Proof.Gen.Kernel
import proofs.«427747_j82978768159600_2_alg».proof.Proof.Gen.Kernel.Skeleton
import proofs.«427747_j82978768159600_2_alg».proof.Proof.Gen.Kernel.Launch
import proofs.«427747_j82978768159600_2_alg».proof.Proof.Gen.Kernel.Points
import proofs.«427747_j82978768159600_2_alg».proof.Proof.Gen.Kernel.Frame
import proofs.«427747_j82978768159600_2_alg».proof.Proof.Gen.KernelIdeal
import proofs.«427747_j82978768159600_2_alg».proof.Proof.Gen.KernelIdeal.Skeleton
import proofs.«427747_j82978768159600_2_alg».proof.Proof.Gen.KernelIdeal.Launch
import proofs.«427747_j82978768159600_2_alg».proof.Proof.Gen.KernelIdeal.Points
import proofs.«427747_j82978768159600_2_alg».proof.Proof.Gen.KernelIdeal.Frame
import proofs.«427747_j82978768159600_2_alg».proof.Proof.Gen.ReferenceIdeal
import proofs.«427747_j82978768159600_2_alg».proof.Proof.Gen.Pre_finite_inputs
import proofs.«427747_j82978768159600_2_alg».proof.Proof.Gen.ReferenceIdeal.Run
import proofs.«427747_j82978768159600_2_alg».proof.Proof.Gen.ReferenceIdeal.Read
import proofs.«427747_j82978768159600_2_alg».proof.Proof.PreDecode
import proofs.«427747_j82978768159600_2_alg».proof.Proof.KernelValue
import proofs.«427747_j82978768159600_2_alg».proof.Proof.RefDeq
import proofs.«427747_j82978768159600_2_alg».proof.Proof.RefOut
import Idealize.ShloMosaic.Adequacy
import Idealize.ShloMosaic.Init

noncomputable section

namespace Cert.Proof

open Idealize.ShloMosaic Idealize.SL.Sem Idealize.ShloMosaic.TcCoe

/-- The word-level kernel runs and keeps its arguments: the generated frame. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, with the index table a permutation, both programs end at `G` of the
    arguments: the kernel by its frame run read through the host operations around the call, the reference by its run
    read operation by operation. -/
theorem algebraic : Cert.algebraic_KernelIdeal_ReferenceIdeal := by
  intro m ρ m' ρ' hpre hagree
  -- the precondition's last conjunct: the table sorts to the identity table
  have hperm : ∀ c, Cert.Spec.IsPerm (Cert.KernelIdeal.Val.ridxOf m c) :=
    fun c => Cert.PreDecode.isPerm_of_pre _ _ _ (hpre c)
  refine ⟨fun c => Cert.Spec.G (Cert.KernelIdeal.Val.tensorOf m c) (Cert.KernelIdeal.Val.smoothOf m c)
    (Cert.KernelIdeal.Val.ridxOf m c), ?_, ?_⟩
  · refine (θ_run Cert.KernelIdeal.defs _ _).mono (fun r h c => ?_) (Cert.KernelIdeal.Gen.run_main m ρ)
    exact ⟨((h c).2 Cert.KernelIdeal.main_v11
          (Pipeline.mem_restRefs_of Cert.KernelIdeal.main_v11 (by decide) (by decide))).trans
        (Cert.KernelIdeal.Val.result_eq m c (hperm c)),
      ((h c).2 Cert.KernelIdeal.main_arg0
          (Pipeline.mem_restRefs_of Cert.KernelIdeal.main_arg0 (by decide) (by decide))).trans
        (Cert.KernelIdeal.Gen.W_main_arg0 m (Cert.KernelIdeal.Gen.dats m) c),
      ((h c).2 Cert.KernelIdeal.main_arg1
          (Pipeline.mem_restRefs_of Cert.KernelIdeal.main_arg1 (by decide) (by decide))).trans
        (Cert.KernelIdeal.Gen.W_main_arg1 m (Cert.KernelIdeal.Gen.dats m) c),
      ((h c).2 Cert.KernelIdeal.main_arg2
          (Pipeline.mem_restRefs_of Cert.KernelIdeal.main_arg2 (by decide) (by decide))).trans
        (Cert.KernelIdeal.Gen.W_main_arg2 m (Cert.KernelIdeal.Gen.dats m) c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v49_eq, (hagree c).1, (hagree c).2.1, (hagree c).2.2]
    exact funext fun i => Cert.ReferenceIdeal.RefValue.out_apply _ _ _
      (Cert.ReferenceIdeal.RefValue.deq_apply _ _ _ (hperm c)) i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
